-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S2x16000000 : Shape := ⟨2, ![2, 16000000]⟩
abbrev S128x4 : Shape := ⟨2, ![128, 4]⟩
abbrev S4 : Shape := ⟨1, ![4]⟩
abbrev S4x4 : Shape := ⟨2, ![4, 4]⟩
abbrev S4x2 : Shape := ⟨2, ![4, 2]⟩
abbrev S2 : Shape := ⟨1, ![2]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S128x4 : S_.BroadcastsInDim S128x4 (![] : Fin 0 → Fin S128x4.rank)
  reducesTo_S128x4_S_d0_1 : S128x4.ReducesTo [0, 1] S_
  bcast_S_S4 : S_.BroadcastsInDim S4 (![] : Fin 0 → Fin S4.rank)
  reducesTo_S4_S_d0 : S4.ReducesTo [0] S_
  bcast_S_S4x4 : S_.BroadcastsInDim S4x4 (![] : Fin 0 → Fin S4x4.rank)
  reducesTo_S4x4_S_d0_1 : S4x4.ReducesTo [0, 1] S_
  bcast_S_S4x2 : S_.BroadcastsInDim S4x2 (![] : Fin 0 → Fin S4x2.rank)
  reducesTo_S4x2_S_d0_1 : S4x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S4 .f32) (main_arg6 : FVec F S4x2 .f32) (main_arg7 : FVec F S2 .f32) (main_v13 : IVec S_ 1) (main_v16 : IVec S4x4 1) : IVec S_ 1 :=
  let main_c_5 : IVec S_ 1 := constantI S_ 1 1#1
  let main_v17 : IVec S_ 1 := (fun x v => Host.reduce IntOp.andi x v reducesTo_S4x4_S_d0_1 h_S_) main_v16 main_c_5
  let main_v18 : IVec S_ 1 := andi main_v13 main_v17
  let main_v19 : FVec F S4 .f32 := Host.absf main_arg5
  let main_cst_6 : FVec F S_ .f32 := constant S_ .f32 0x7F800000#32
  let main_v20 : FVec F S4 .f32 := broadcastInDim S4 ![] bcast_S_S4 main_cst_6
  let main_v21 : IVec S4 1 := cmpf .olt main_v19 main_v20
  let main_c_7 : IVec S_ 1 := constantI S_ 1 1#1
  let main_v22 : IVec S_ 1 := (fun x v => Host.reduce IntOp.andi x v reducesTo_S4_S_d0 h_S_) main_v21 main_c_7
  let main_v23 : IVec S_ 1 := andi main_v18 main_v22
  let main_v24 : FVec F S4x2 .f32 := Host.absf main_arg6
  let main_cst_8 : FVec F S_ .f32 := constant S_ .f32 0x7F800000#32
  let main_v25 : FVec F S4x2 .f32 := broadcastInDim S4x2 ![] bcast_S_S4x2 main_cst_8
  let main_v26 : IVec S4x2 1 := cmpf .olt main_v24 main_v25
  let main_c_9 : IVec S_ 1 := constantI S_ 1 1#1
  let main_v27 : IVec S_ 1 := (fun x v => Host.reduce IntOp.andi x v reducesTo_S4x2_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S500000x128 .f32) (main_arg1 : IVec S2x16000000 32) (main_arg2 : FVec F S128x4 .f32) (main_arg3 : FVec F S4 .f32) (main_arg4 : FVec F S4x4 .f32) (main_arg5 : FVec F S4 .f32) (main_arg6 : FVec F S4x2 .f32) (main_arg7 : FVec F S2 .f32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S128x4 .f32 := Host.absf main_arg2
  let main_cst_0 : FVec F S_ .f32 := constant S_ .f32 0x7F800000#32
  let main_v5 : FVec F S128x4 .f32 := broadcastInDim S128x4 ![] bcast_S_S128x4 main_cst_0
  let main_v6 : IVec S128x4 1 := cmpf .olt main_v4 main_v5
  let main_c_1 : IVec S_ 1 := constantI S_ 1 1#1
  let main_v7 : IVec S_ 1 := (fun x v => Host.reduce IntOp.andi x v reducesTo_S128x4_S_d0_1 h_S_) main_v6 main_c_1
  let main_v8 : IVec S_ 1 := andi main_v3 main_v7
  let main_v9 : FVec F S4 .f32 := Host.absf main_arg3
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S4x4 .f32 := Host.absf main_arg4
  let main_cst_4 : FVec F S_ .f32 := constant S_ .f32 0x7F800000#32
  let main_v15 : FVec F S4x4 .f32 := broadcastInDim S4x4 ![] bcast_S_S4x4 main_cst_4
  let main_v16 : IVec S4x4 1 := cmpf .olt main_v14 main_v15
  fn_part1 (F := F) main_arg5 main_arg6 main_arg7 main_v13 main_v16
-- ==== Kernel.lean ====
abbrev S500000x128 : Shape := ⟨2, ![500000, 128]⟩
abbrev S2x16000000 : Shape := ⟨2, ![2, 16000000]⟩
abbrev S128x4 : Shape := ⟨2, ![128, 4]⟩
abbrev S4 : Shape := ⟨1, ![4]⟩
abbrev S4x4 : Shape := ⟨2, ![4, 4]⟩
abbrev S4x2 : Shape := ⟨2, ![4, 2]⟩
abbrev S2 : Shape := ⟨1, ![2]⟩
abbrev S500000 : Shape := ⟨1, ![500000]⟩
abbrev S1x16000000 : Shape := ⟨2, ![1, 16000000]⟩
abbrev S16000000 : Shape := ⟨1, ![16000000]⟩
abbrev S16500000 : Shape := ⟨1, ![16500000]⟩
abbrev S_ : Shape := ⟨0, ![]⟩
abbrev S16500000x1 : Shape := ⟨2, ![16500000, 1]⟩
abbrev S500000x4 : Shape := ⟨2, ![500000, 4]⟩
abbrev S10000x128 : Shape := ⟨2, ![10000, 128]⟩
abbrev S10000x4 : Shape := ⟨2, ![10000, 4]⟩
abbrev S16500000x4 : Shape := ⟨2, ![16500000, 4]⟩
abbrev S1x4 : Shape := ⟨2, ![1, 4]⟩
abbrev S500000x2 : Shape := ⟨2, ![500000, 2]⟩
abbrev S10000x2 : Shape := ⟨2, ![10000, 2]⟩
abbrev S16500000x2 : Shape := ⟨2, ![16500000, 2]⟩
abbrev S1x2 : Shape := ⟨2, ![1, 2]⟩

abbrev nBuf : Space → Nat
  | .hbm => 112
  | .vmem => 15
  | .smem => 0
  | _ => 0

abbrev bufTy : (tb : Table) → Fin (tcTables nBuf tb) → BufTy
  | .hbm, ⟨0, _⟩ => ⟨S500000x128, .f32⟩
  | .hbm, ⟨1, _⟩ => ⟨S2x16000000, .i32⟩
  | .hbm, ⟨2, _⟩ => ⟨S128x4, .f32⟩
  | .hbm, ⟨3, _⟩ => ⟨S4, .f32⟩
  | .hbm, ⟨4, _⟩ => ⟨S4x4, .f32⟩
  | .hbm, ⟨5, _⟩ => ⟨S4, .f32⟩
  | .hbm, ⟨6, _⟩ => ⟨S4x2, .f32⟩
  | .hbm, ⟨7, _⟩ => ⟨S2, .f32⟩
  | .hbm, ⟨8, _⟩ => ⟨S500000, .i32⟩
  | .hbm, ⟨9, _⟩ => ⟨S1x16000000, .i32⟩
  | .hbm, ⟨10, _⟩ => ⟨S16000000, .i32⟩
  | .hbm, ⟨11, _⟩ => ⟨S16500000, .i32⟩
  | .hbm, ⟨12, _⟩ => ⟨S1x16000000, .i32⟩
  | .hbm, ⟨13, _⟩ => ⟨S16000000, .i32⟩
  | .hbm, ⟨14, _⟩ => ⟨S16500000, .i32⟩
  | .hbm, ⟨15, _⟩ => ⟨S_, .f32⟩
  | .hbm, ⟨16, _⟩ => ⟨S16500000, .f32⟩
  | .hbm, ⟨17, _⟩ => ⟨S_, .f32⟩
  | .hbm, ⟨18, _⟩ => ⟨S500000, .f32⟩
  | .hbm, ⟨19, _⟩ => ⟨S16500000x1, .i32⟩
  | .hbm, ⟨20, _⟩ => ⟨S500000, .f32⟩
  | .hbm, ⟨21, _⟩ => ⟨S_, .f32⟩
  | .hbm, ⟨22, _⟩ => ⟨S500000, .f32⟩
  | .hbm, ⟨23, _⟩ => ⟨S500000, .i1⟩
  | .hbm, ⟨24, _⟩ => ⟨S500000, .f32⟩
  | .hbm, ⟨25, _⟩ => ⟨S_, .f32⟩
  | .hbm, ⟨26, _⟩ => ⟨S_, .f32⟩
  | .hbm, ⟨27, _⟩ => ⟨S500000, .f32⟩
  | .hbm, ⟨28, _⟩ => ⟨S500000, .f32⟩
  | .hbm, ⟨29, _⟩ => ⟨S_, .i32⟩
  | .hbm, ⟨30, _⟩ => ⟨S16500000, .i32⟩
  | .hbm, ⟨31, _⟩ => ⟨S16500000, .i1⟩
  | .hbm, ⟨32, _⟩ => ⟨S_, .i32⟩
  | .hbm, ⟨33, _⟩ => ⟨S16500000, .i32⟩
  | .hbm, ⟨34, _⟩ => ⟨S16500000, .i32⟩
  | .hbm, ⟨35, _⟩ => ⟨S16500000, .i32⟩
  | .hbm, ⟨36, _⟩ => ⟨S16500000x1, .i32⟩
  | .hbm, ⟨37, _⟩ => ⟨S16500000, .f32⟩
  | .hbm, ⟨38, _⟩ => ⟨S_, .i32⟩
  | .hbm, ⟨39, _⟩ => ⟨S16500000, .i32⟩
  | .hbm, ⟨40, _⟩ => ⟨S16500000, .i1⟩
  | .hbm, ⟨41, _⟩ => ⟨S_, .i32⟩
  | .hbm, ⟨42, _⟩ => ⟨S16500000, .i32⟩
  | .hbm, ⟨43, _⟩ => ⟨S16500000, .i32⟩
  | .hbm, ⟨44, _⟩ => ⟨S16500000, .i32⟩
  | .hbm, ⟨45, _⟩ => ⟨S16500000x1, .i32⟩
  | .hbm, ⟨46, _⟩ => ⟨S16500000, .f32⟩
  | .hbm, ⟨47, _⟩ => ⟨S16500000, .f32⟩
  | .hbm, ⟨48, _⟩ => ⟨S16500000x1, .f32⟩
  | .hbm, ⟨49, _⟩ => ⟨S500000x4, .f32⟩
  | .hbm, ⟨50, _⟩ => ⟨S_, .i32⟩
  | .hbm, ⟨51, _⟩ => ⟨S16500000, .i32⟩
  | .hbm, ⟨52, _⟩ => ⟨S16500000, .i1⟩
  | .hbm, ⟨53, _⟩ => ⟨S_, .i32⟩
  | .hbm, ⟨54, _⟩ => ⟨S16500000, .i32⟩
  | .hbm, ⟨55, _⟩ => ⟨S16500000, .i32⟩
  | .hbm, ⟨56, _⟩ => ⟨S16500000, .i32⟩
  | .hbm, ⟨57, _⟩ => ⟨S16500000x1, .i32⟩
  | .hbm, ⟨58, _⟩ => ⟨S16500000x4, .f32⟩
  | .hbm, ⟨59, _⟩ => ⟨S16500000x4, .f32⟩
  | .hbm, ⟨60, _⟩ => ⟨S16500000x4, .f32⟩
  | .hbm, ⟨61, _⟩ => ⟨S_, .f32⟩
  | .hbm, ⟨62, _⟩ => ⟨S500000x4, .f32⟩
  | .hbm, ⟨63, _⟩ => ⟨S16500000x1, .i32⟩
  | .hbm, ⟨64, _⟩ => ⟨S500000x4, .f32⟩
  | .hbm, ⟨65, _⟩ => ⟨S1x4, .f32⟩
  | .hbm, ⟨66, _⟩ => ⟨S500000x4, .f32⟩
  | .hbm, ⟨67, _⟩ => ⟨S500000x4, .f32⟩
  | .hbm, ⟨68, _⟩ => ⟨S_, .f32⟩
  | .hbm, ⟨69, _⟩ => ⟨S500000x4, .f32⟩
  | .hbm, ⟨70, _⟩ => ⟨S500000x4, .f32⟩
  | .hbm, ⟨71, _⟩ => ⟨S500000x4, .f32⟩
  | .hbm, ⟨72, _⟩ => ⟨S_, .i32⟩
  | .hbm, ⟨73, _⟩ => ⟨S16500000, .i32⟩
  | .hbm, ⟨74, _⟩ => ⟨S16500000, .i1⟩
  | .hbm, ⟨75, _⟩ => ⟨S_, .i32⟩
  | .hbm, ⟨76, _⟩ => ⟨S16500000, .i32⟩
  | .hbm, ⟨77, _⟩ => ⟨S16500000, .i32⟩
  | .hbm, ⟨78, _⟩ => ⟨S16500000, .i32⟩
  | .hbm, ⟨79, _⟩ => ⟨S16500000x1, .i32⟩
  | .hbm, ⟨80, _⟩ => ⟨S16500000x4, .f32⟩
  | .hbm, ⟨81, _⟩ => ⟨S16500000x4, .f32⟩
  | .hbm, ⟨82, _⟩ => ⟨S16500000x4, .f32⟩
  | .hbm, ⟨83, _⟩ => ⟨S_, .f32⟩
  | .hbm, ⟨84, _⟩ => ⟨S500000x4, .f32⟩
  | .hbm, ⟨85, _⟩ => ⟨S16500000x1, .i32⟩
  | .hbm, ⟨86, _⟩ => ⟨S500000x4, .f32⟩
  | .hbm, ⟨87, _⟩ => ⟨S1x4, .f32⟩
  | .hbm, ⟨88, _⟩ => ⟨S500000x4, .f32⟩
  | .hbm, ⟨89, _⟩ => ⟨S500000x4, .f32⟩
  | .hbm, ⟨90, _⟩ => ⟨S_, .f32⟩
  | .hbm, ⟨91, _⟩ => ⟨S500000x4, .f32⟩
  | .hbm, ⟨92, _⟩ => ⟨S500000x4, .f32⟩
  | .hbm, ⟨93, _⟩ => ⟨S500000x2, .f32⟩
  | .hbm, ⟨94, _⟩ => ⟨S_, .i32⟩
  | .hbm, ⟨95, _⟩ => ⟨S16500000, .i32⟩
  | .hbm, ⟨96, _⟩ => ⟨S16500000, .i1⟩
  | .hbm, ⟨97, _⟩ => ⟨S_, .i32⟩
  | .hbm, ⟨98, _⟩ => ⟨S16500000, .i32⟩
  | .hbm, ⟨99, _⟩ => ⟨S16500000, .i32⟩
  | .hbm, ⟨100, _⟩ => ⟨S16500000, .i32⟩
  | .hbm, ⟨101, _⟩ => ⟨S16500000x1, .i32⟩
  | .hbm, ⟨102, _⟩ => ⟨S16500000x2, .f32⟩
  | .hbm, ⟨103, _⟩ => ⟨S16500000x2, .f32⟩
  | .hbm, ⟨104, _⟩ => ⟨S16500000x2, .f32⟩
  | .hbm, ⟨105, _⟩ => ⟨S_, .f32⟩
  | .hbm, ⟨106, _⟩ => ⟨S500000x2, .f32⟩
  | .hbm, ⟨107, _⟩ => ⟨S16500000x1, .i32⟩
  | .hbm, ⟨108, _⟩ => ⟨S500000x2, .f32⟩
  | .hbm, ⟨109, _⟩ => ⟨S1x2, .f32⟩
  | .hbm, ⟨110, _⟩ => ⟨S500000x2, .f32⟩
  | .hbm, ⟨111, _⟩ => ⟨S500000x2, .f32⟩
  | .local _ .vmem, ⟨0, _⟩ => ⟨S10000x128, .f32⟩
  | .local _ .vmem, ⟨1, _⟩ => ⟨S10000x128, .f32⟩
  | .local _ .vmem, ⟨2, _⟩ => ⟨S128x4, .f32⟩
  | .local _ .vmem, ⟨3, _⟩ => ⟨S10000x4, .f32⟩
  | .local _ .vmem, ⟨4, _⟩ => ⟨S10000x4, .f32⟩
  | .local _ .vmem, ⟨5, _⟩ => ⟨S10000x4, .f32⟩
  | .local _ .vmem, ⟨6, _⟩ => ⟨S10000x4, .f32⟩
  | .local _ .vmem, ⟨7, _⟩ => ⟨S4x4, .f32⟩
  | .local _ .vmem, ⟨8, _⟩ => ⟨S10000x4, .f32⟩
  | .local _ .vmem, ⟨9, _⟩ => ⟨S10000x4, .f32⟩
  | .local _ .vmem, ⟨10, _⟩ => ⟨S10000x4, .f32⟩
  | .local _ .vmem, ⟨11, _⟩ => ⟨S10000x4, .f32⟩
  | .local _ .vmem, ⟨12, _⟩ => ⟨S4x2, .f32⟩
  | .local _ .vmem, ⟨13, _⟩ => ⟨S10000x2, .f32⟩
  | .local _ .vmem, ⟨14, _⟩ => ⟨S10000x2, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_11 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_call2_cst : Ref sig .tc := ⟨.hbm, 90, rfl⟩
abbrev main_call2_v0 : Ref sig .tc := ⟨.hbm, 91, rfl⟩
abbrev main_v64 : Ref sig .tc := ⟨.hbm, 92, rfl⟩
abbrev main_v65 : Ref sig .tc := ⟨.hbm, 93, rfl⟩
abbrev main_c_12 : Ref sig .tc := ⟨.hbm, 94, rfl⟩
abbrev main_v66 : Ref sig .tc := ⟨.hbm, 95, rfl⟩
abbrev main_v67 : Ref sig .tc := ⟨.hbm, 96, rfl⟩
abbrev main_c_13 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_14 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x4 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x4 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x4 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x2 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x16000000_S1x16000000_0_0 : S2x16000000.Slices ![0, 0] S1x16000000
  shapeCasts_S1x16000000_S16000000 : S1x16000000.ShapeCasts S16000000
  concatenates_S16000000_S500000_S16500000_d0 : Shape.Concatenates [S16000000, S500000] S16500000 0
  slices_S2x16000000_S1x16000000_1_0 : S2x16000000.Slices ![1, 0] S1x16000000
  bcast_S_S16500000 : S_.BroadcastsInDim S16500000 (![] : Fin 0 → Fin S16500000.rank)
  bcast_S_S500000 : S_.BroadcastsInDim S500000 (![] : Fin 0 → Fin S500000.rank)
  bcast_S16500000_S16500000x1_0 : S16500000.BroadcastsInDim S16500000x1 (![0] : Fin 1 → Fin S16500000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x4_S128x4_0_0 : ∀ a, (![0, 0] : Fin 2 → Nat) a + S128x4.size a ≤ S128x4.size a
  h_S128x4 : 0 < S128x4.numel
  inb_S10000x4_S10000x4_0_0 : ∀ a, (![0, 0] : Fin 2 → Nat) a + S10000x4.size a ≤ S10000x4.size a
  h_S10000x4 : 0 < S10000x4.numel
  bcast_S16500000x1_S16500000x4_0_1 : S16500000x1.BroadcastsInDim S16500000x4 (![0, 1] : Fin 2 → Fin S16500000x4.rank)
  bcast_S_S500000x4 : S_.BroadcastsInDim S500000x4 (![] : Fin 0 → Fin S500000x4.rank)
  bcast_S4_S1x4_1 : S4.BroadcastsInDim S1x4 (![1] : Fin 1 → Fin S1x4.rank)
  bcast_S1x4_S500000x4_0_1 : S1x4.BroadcastsInDim S500000x4 (![0, 1] : Fin 2 → Fin S500000x4.rank)
  shapeCasts_S10000x4_S10000x4 : S10000x4.ShapeCasts S10000x4
  inb_S4x4_S4x4_0_0 : ∀ a, (![0, 0] : Fin 2 → Nat) a + S4x4.size a ≤ S4x4.size a
  h_S4x4 : 0 < S4x4.numel
  inb_S4x2_S4x2_0_0 : ∀ a, (![0, 0] : Fin 2 → Nat) a + S4x2.size a ≤ S4x2.size a
  h_S4x2 : 0 < S4x2.numel
  inb_S10000x2_S10000x2_0_0 : ∀ a, (![0, 0] : Fin 2 → Nat) a + S10000x2.size a ≤ S10000x2.size a
  h_S10000x2 : 0 < S10000x2.numel
  bcast_S16500000x1_S16500000x2_0_1 : S16500000x1.BroadcastsInDim S16500000x2 (![0, 1] : Fin 2 → Fin S16500000x2.rank)
  bcast_S_S500000x2 : S_.BroadcastsInDim S500000x2 (![] : Fin 0 → Fin S500000x2.rank)
  bcast_S2_S1x2_1 : S2.BroadcastsInDim S1x2 (![1] : Fin 1 → Fin S1x2.rank)
  bcast_S1x2_S500000x2_0_1 : S1x2.BroadcastsInDim S500000x2 (![0, 1] : Fin 2 → Fin S500000x2.rank)
  scatter_S500000_S16500000x1_S16500000_n_0_0_1_wf : ScatterDims.WF S500000 S16500000x1 S16500000 [] [0] [0] 1
  gather_S500000_S16500000x1_S16500000_n_0_n_n_0_1_1_wf : GatherDims.WF S500000 S16500000x1 S16500000 [] [0] [] [0] [] 1 ![1]
  dot_S10000x128_S128x4_S10000x4_1_0_0_1_n_n_wf : DotDims.WF S10000x128 S128x4 S10000x4 [1] [0] [0] [1] [] []
  gather_S500000x4_S16500000x1_S16500000x4_1_0_n_n_0_1_14_wf : GatherDims.WF S500000x4 S16500000x1 S16500000x4 [1] [0] [] [0] [] 1 ![1, 4]
  scatter_S500000x4_S16500000x1_S16500000x4_1_0_0_1_wf : ScatterDims.WF S500000x4 S16500000x1 S16500000x4 [1] [0] [0] 1
  dot_S10000x4_S4x4_S10000x4_1_0_0_1_n_n_wf : DotDims.WF S10000x4 S4x4 S10000x4 [1] [0] [0] [1] [] []
  dot_S10000x4_S4x2_S10000x2_1_0_0_1_n_n_wf : DotDims.WF S10000x4 S4x2 S10000x2 [1] [0] [0] [1] [] []
  gather_S500000x2_S16500000x1_S16500000x2_1_0_n_n_0_1_12_wf : GatherDims.WF S500000x2 S16500000x1 S16500000x2 [1] [0] [] [0] [] 1 ![1, 2]
  scatter_S500000x2_S16500000x1_S16500000x2_1_0_0_1_wf : ScatterDims.WF S500000x2 S16500000x1 S16500000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S500000x128.size a
  hwx0_0 : ∀ i : grid0.Coords, EltTy.bits .f32 = 32 ∨ (Rect.block (s := S500000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x4.size a ≤ S128x4.size a
  hwx0_1 : ∀ i : grid0.Coords, EltTy.bits .f32 = 32 ∨ (Rect.block (s := S128x4) S128x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x4.size a ≤ S500000x4.size a
  hwx0_2 : ∀ i : grid0.Coords, EltTy.bits .f32 = 32 ∨ (Rect.block (s := S500000x4) S10000x4.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x4.size a ≤ S500000x4.size a
  hwx1_0 : ∀ i : grid1.Coords, EltTy.bits .f32 = 32 ∨ (Rect.block (s := S500000x4) S10000x4.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4x4.size a ≤ S4x4.size a
  hwx1_1 : ∀ i : grid1.Coords, EltTy.bits .f32 = 32 ∨ (Rect.block (s := S4x4) S4x4.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x4.size a ≤ S500000x4.size a
  hwx1_2 : ∀ i : grid1.Coords, EltTy.bits .f32 = 32 ∨ (Rect.block (s := S500000x4) S10000x4.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x4.size a ≤ S500000x4.size a
  hwx2_0 : ∀ i : grid2.Coords, EltTy.bits .f32 = 32 ∨ (Rect.block (s := S500000x4) S10000x4.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4x2.size a ≤ S4x2.size a
  hwx2_1 : ∀ i : grid2.Coords, EltTy.bits .f32 = 32 ∨ (Rect.block (s := S4x2) S4x2.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x2.size a ≤ S500000x2.size a
  hwx2_2 : ∀ i : grid2.Coords, EltTy.bits .f32 = 32 ∨ (Rect.block (s := S500000x2) S10000x2.size (cc2_transform_2 i) (hinb2_2 i)).WholeWords (EltTy.packing .f32)

variable [Facts₀]

def scatter_S500000_S16500000x1_S16500000_n_0_0_1 : ScatterDims S500000 S16500000x1 S16500000 where
  updateWindowDims := []
  insertedWindowDims := [0]
  scatterDimsToOperandDims := [0]
  indexVectorDim := 1
  wf := scatter_S500000_S16500000x1_S16500000_n_0_0_1_wf
def gather_S500000_S16500000x1_S16500000_n_0_n_n_0_1_1 : GatherDims S500000 S16500000x1 S16500000 where
  offsetDims := []
  collapsedSliceDims := [0]
  operandBatchingDims := []
  startIndicesBatchingDims := []
  startIndexMap := [0]
  indexVectorDim := 1
  sliceSizes := ![1]
  wf := gather_S500000_S16500000x1_S16500000_n_0_n_n_0_1_1_wf
def dot_S10000x128_S128x4_S10000x4_1_0_0_1_n_n : DotDims S10000x128 S128x4 S10000x4 where
  lhsContracting := [1]
  rhsContracting := [0]
  lhsNonContracting := [0]
  rhsNonContracting := [1]
  lhsBatch := []
  rhsBatch := []
  wf := dot_S10000x128_S128x4_S10000x4_1_0_0_1_n_n_wf
def gather_S500000x4_S16500000x1_S16500000x4_1_0_n_n_0_1_14 : GatherDims S500000x4 S16500000x1 S16500000x4 where
  offsetDims := [1]
  collapsedSliceDims := [0]
  operandBatchingDims := []
  startIndicesBatchingDims := []
  startIndexMap := [0]
  indexVectorDim := 1
  sliceSizes := ![1, 4]
  wf := gather_S500000x4_S16500000x1_S16500000x4_1_0_n_n_0_1_14_wf
def scatter_S500000x4_S16500000x1_S16500000x4_1_0_0_1 : ScatterDims S500000x4 S16500000x1 S16500000x4 where
  updateWindowDims := [1]
  insertedWindowDims := [0]
  scatterDimsToOperandDims := [0]
  indexVectorDim := 1
  wf := scatter_S500000x4_S16500000x1_S16500000x4_1_0_0_1_wf
def dot_S10000x4_S4x4_S10000x4_1_0_0_1_n_n : DotDims S10000x4 S4x4 S10000x4 where
  lhsContracting := [1]
  rhsContracting := [0]
  lhsNonContracting := [0]
  rhsNonContracting := [1]
  lhsBatch := []
  rhsBatch := []
  wf := dot_S10000x4_S4x4_S10000x4_1_0_0_1_n_n_wf
def dot_S10000x4_S4x2_S10000x2_1_0_0_1_n_n : DotDims S10000x4 S4x2 S10000x2 where
  lhsContracting := [1]
  rhsContracting := [0]
  lhsNonContracting := [0]
  rhsNonContracting := [1]
  lhsBatch := []
  rhsBatch := []
  wf := dot_S10000x4_S4x2_S10000x2_1_0_0_1_n_n_wf
def gather_S500000x2_S16500000x1_S16500000x2_1_0_n_n_0_1_12 : GatherDims S500000x2 S16500000x1 S16500000x2 where
  offsetDims := [1]
  collapsedSliceDims := [0]
  operandBatchingDims := []
  startIndicesBatchingDims := []
  startIndexMap := [0]
  indexVectorDim := 1
  sliceSizes := ![1, 2]
  wf := gather_S500000x2_S16500000x1_S16500000x2_1_0_n_n_0_1_12_wf
def scatter_S500000x2_S16500000x1_S16500000x2_1_0_0_1 : ScatterDims S500000x2 S16500000x1 S16500000x2 where
  updateWindowDims := [1]
  insertedWindowDims := [0]
  scatterDimsToOperandDims := [0]
  indexVectorDim := 1
  wf := scatter_S500000x2_S16500000x1_S16500000x2_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S10000x4.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x4.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S4x4.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S10000x4.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v64) S10000x4.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S4x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v65) S10000x2.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S500000x128 : Shape := ⟨2, ![500000, 128]⟩
abbrev S2x16000000 : Shape := ⟨2, ![2, 16000000]⟩
abbrev S128x4 : Shape := ⟨2, ![128, 4]⟩
abbrev S4 : Shape := ⟨1, ![4]⟩
abbrev S4x4 : Shape := ⟨2, ![4, 4]⟩
abbrev S4x2 : Shape := ⟨2, ![4, 2]⟩
abbrev S2 : Shape := ⟨1, ![2]⟩
abbrev S500000 : Shape := ⟨1, ![500000]⟩
abbrev S1x16000000 : Shape := ⟨2, ![1, 16000000]⟩
abbrev S16000000 : Shape := ⟨1, ![16000000]⟩
abbrev S16500000 : Shape := ⟨1, ![16500000]⟩
abbrev S_ : Shape := ⟨0, ![]⟩
abbrev S16500000x1 : Shape := ⟨2, ![16500000, 1]⟩
abbrev S500000x4 : Shape := ⟨2, ![500000, 4]⟩
abbrev S16500000x4 : Shape := ⟨2, ![16500000, 4]⟩
abbrev S1x4 : Shape := ⟨2, ![1, 4]⟩
abbrev S500000x2 : Shape := ⟨2, ![500000, 2]⟩
abbrev S16500000x2 : Shape := ⟨2, ![16500000, 2]⟩
abbrev S1x2 : Shape := ⟨2, ![1, 2]⟩

abbrev nBuf : Space → Nat
  | .hbm => 114
  | .vmem => 0
  | .smem => 0
  | _ => 0

abbrev bufTy : (tb : Table) → Fin (tcTables nBuf tb) → BufTy
  | .hbm, ⟨0, _⟩ => ⟨S500000x128, .f32⟩
  | .hbm, ⟨1, _⟩ => ⟨S2x16000000, .i32⟩
  | .hbm, ⟨2, _⟩ => ⟨S128x4, .f32⟩
  | .hbm, ⟨3, _⟩ => ⟨S4, .f32⟩
  | .hbm, ⟨4, _⟩ => ⟨S4x4, .f32⟩
  | .hbm, ⟨5, _⟩ => ⟨S4, .f32⟩
  | .hbm, ⟨6, _⟩ => ⟨S4x2, .f32⟩
  | .hbm, ⟨7, _⟩ => ⟨S2, .f32⟩
  | .hbm, ⟨8, _⟩ => ⟨S500000, .i32⟩
  | .hbm, ⟨9, _⟩ => ⟨S1x16000000, .i32⟩
  | .hbm, ⟨10, _⟩ => ⟨S16000000, .i32⟩
  | .hbm, ⟨11, _⟩ => ⟨S16500000, .i32⟩
  | .hbm, ⟨12, _⟩ => ⟨S1x16000000, .i32⟩
  | .hbm, ⟨13, _⟩ => ⟨S16000000, .i32⟩
  | .hbm, ⟨14, _⟩ => ⟨S16500000, .i32⟩
  | .hbm, ⟨15, _⟩ => ⟨S_, .f32⟩
  | .hbm, ⟨16, _⟩ => ⟨S16500000, .f32⟩
  | .hbm, ⟨17, _⟩ => ⟨S_, .f32⟩
  | .hbm, ⟨18, _⟩ => ⟨S500000, .f32⟩
  | .hbm, ⟨19, _⟩ => ⟨S16500000x1, .i32⟩
  | .hbm, ⟨20, _⟩ => ⟨S500000, .f32⟩
  | .hbm, ⟨21, _⟩ => ⟨S_, .f32⟩
  | .hbm, ⟨22, _⟩ => ⟨S500000, .f32⟩
  | .hbm, ⟨23, _⟩ => ⟨S500000, .i1⟩
  | .hbm, ⟨24, _⟩ => ⟨S500000, .f32⟩
  | .hbm, ⟨25, _⟩ => ⟨S_, .f32⟩
  | .hbm, ⟨26, _⟩ => ⟨S_, .f32⟩
  | .hbm, ⟨27, _⟩ => ⟨S500000, .f32⟩
  | .hbm, ⟨28, _⟩ => ⟨S500000, .f32⟩
  | .hbm, ⟨29, _⟩ => ⟨S_, .i32⟩
  | .hbm, ⟨30, _⟩ => ⟨S16500000, .i32⟩
  | .hbm, ⟨31, _⟩ => ⟨S16500000, .i1⟩
  | .hbm, ⟨32, _⟩ => ⟨S_, .i32⟩
  | .hbm, ⟨33, _⟩ => ⟨S16500000, .i32⟩
  | .hbm, ⟨34, _⟩ => ⟨S16500000, .i32⟩
  | .hbm, ⟨35, _⟩ => ⟨S16500000, .i32⟩
  | .hbm, ⟨36, _⟩ => ⟨S16500000x1, .i32⟩
  | .hbm, ⟨37, _⟩ => ⟨S16500000, .f32⟩
  | .hbm, ⟨38, _⟩ => ⟨S_, .i32⟩
  | .hbm, ⟨39, _⟩ => ⟨S16500000, .i32⟩
  | .hbm, ⟨40, _⟩ => ⟨S16500000, .i1⟩
  | .hbm, ⟨41, _⟩ => ⟨S_, .i32⟩
  | .hbm, ⟨42, _⟩ => ⟨S16500000, .i32⟩
  | .hbm, ⟨43, _⟩ => ⟨S16500000, .i32⟩
  | .hbm, ⟨44, _⟩ => ⟨S16500000, .i32⟩
  | .hbm, ⟨45, _⟩ => ⟨S16500000x1, .i32⟩
  | .hbm, ⟨46, _⟩ => ⟨S16500000, .f32⟩
  | .hbm, ⟨47, _⟩ => ⟨S16500000, .f32⟩
  | .hbm, ⟨48, _⟩ => ⟨S500000x4, .f32⟩
  | .hbm, ⟨49, _⟩ => ⟨S16500000x1, .f32⟩
  | .hbm, ⟨50, _⟩ => ⟨S_, .i32⟩
  | .hbm, ⟨51, _⟩ => ⟨S16500000, .i32⟩
  | .hbm, ⟨52, _⟩ => ⟨S16500000, .i1⟩
  | .hbm, ⟨53, _⟩ => ⟨S_, .i32⟩
  | .hbm, ⟨54, _⟩ => ⟨S16500000, .i32⟩
  | .hbm, ⟨55, _⟩ => ⟨S16500000, .i32⟩
  | .hbm, ⟨56, _⟩ => ⟨S16500000, .i32⟩
  | .hbm, ⟨57, _⟩ => ⟨S16500000x1, .i32⟩
  | .hbm, ⟨58, _⟩ => ⟨S16500000x4, .f32⟩
  | .hbm, ⟨59, _⟩ => ⟨S16500000x4, .f32⟩
  | .hbm, ⟨60, _⟩ => ⟨S16500000x4, .f32⟩
  | .hbm, ⟨61, _⟩ => ⟨S_, .f32⟩
  | .hbm, ⟨62, _⟩ => ⟨S500000x4, .f32⟩
  | .hbm, ⟨63, _⟩ => ⟨S16500000x1, .i32⟩
  | .hbm, ⟨64, _⟩ => ⟨S500000x4, .f32⟩
  | .hbm, ⟨65, _⟩ => ⟨S1x4, .f32⟩
  | .hbm, ⟨66, _⟩ => ⟨S500000x4, .f32⟩
  | .hbm, ⟨67, _⟩ => ⟨S500000x4, .f32⟩
  | .hbm, ⟨68, _⟩ => ⟨S_, .f32⟩
  | .hbm, ⟨69, _⟩ => ⟨S500000x4, .f32⟩
  | .hbm, ⟨70, _⟩ => ⟨S500000x4, .f32⟩
  | .hbm, ⟨71, _⟩ => ⟨S500000x4, .f32⟩
  | .hbm, ⟨72, _⟩ => ⟨S16500000x1, .f32⟩
  | .hbm, ⟨73, _⟩ => ⟨S_, .i32⟩
  | .hbm, ⟨74, _⟩ => ⟨S16500000, .i32⟩
  | .hbm, ⟨75, _⟩ => ⟨S16500000, .i1⟩
  | .hbm, ⟨76, _⟩ => ⟨S_, .i32⟩
  | .hbm, ⟨77, _⟩ => ⟨S16500000, .i32⟩
  | .hbm, ⟨78, _⟩ => ⟨S16500000, .i32⟩
  | .hbm, ⟨79, _⟩ => ⟨S16500000, .i32⟩
  | .hbm, ⟨80, _⟩ => ⟨S16500000x1, .i32⟩
  | .hbm, ⟨81, _⟩ => ⟨S16500000x4, .f32⟩
  | .hbm, ⟨82, _⟩ => ⟨S16500000x4, .f32⟩
  | .hbm, ⟨83, _⟩ => ⟨S16500000x4, .f32⟩
  | .hbm, ⟨84, _⟩ => ⟨S_, .f32⟩
  | .hbm, ⟨85, _⟩ => ⟨S500000x4, .f32⟩
  | .hbm, ⟨86, _⟩ => ⟨S16500000x1, .i32⟩
  | .hbm, ⟨87, _⟩ => ⟨S500000x4, .f32⟩
  | .hbm, ⟨88, _⟩ => ⟨S1x4, .f32⟩
  | .hbm, ⟨89, _⟩ => ⟨S500000x4, .f32⟩
  | .hbm, ⟨90, _⟩ => ⟨S500000x4, .f32⟩
  | .hbm, ⟨91, _⟩ => ⟨S_, .f32⟩
  | .hbm, ⟨92, _⟩ => ⟨S500000x4, .f32⟩
  | .hbm, ⟨93, _⟩ => ⟨S500000x4, .f32⟩
  | .hbm, ⟨94, _⟩ => ⟨S500000x2, .f32⟩
  | .hbm, ⟨95, _⟩ => ⟨S16500000x1, .f32⟩
  | .hbm, ⟨96, _⟩ => ⟨S_, .i32⟩
  | .hbm, ⟨97, _⟩ => ⟨S16500000, .i32⟩
  | .hbm, ⟨98, _⟩ => ⟨S16500000, .i1⟩
  | .hbm, ⟨99, _⟩ => ⟨S_, .i32⟩
  | .hbm, ⟨100, _⟩ => ⟨S16500000, .i32⟩
  | .hbm, ⟨101, _⟩ => ⟨S16500000, .i32⟩
  | .hbm, ⟨102, _⟩ => ⟨S16500000, .i32⟩
  | .hbm, ⟨103, _⟩ => ⟨S16500000x1, .i32⟩
  | .hbm, ⟨104, _⟩ => ⟨S16500000x2, .f32⟩
  | .hbm, ⟨105, _⟩ => ⟨S16500000x2, .f32⟩
  | .hbm, ⟨106, _⟩ => ⟨S16500000x2, .f32⟩
  | .hbm, ⟨107, _⟩ => ⟨S_, .f32⟩
  | .hbm, ⟨108, _⟩ => ⟨S500000x2, .f32⟩
  | .hbm, ⟨109, _⟩ => ⟨S16500000x1, .i32⟩
  | .hbm, ⟨110, _⟩ => ⟨S500000x2, .f32⟩
  | .hbm, ⟨111, _⟩ => ⟨S1x2, .f32⟩
  | .hbm, ⟨112, _⟩ => ⟨S500000x2, .f32⟩
  | .hbm, ⟨113, _⟩ => ⟨S500000x2, .f32⟩
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_c_9 : Ref sig .tc := ⟨.hbm, 73, rfl⟩
abbrev main_v50 : Ref sig .tc := ⟨.hbm, 74, rfl⟩
abbrev main_v51 : Ref sig .tc := ⟨.hbm, 75, rfl⟩
abbrev main_c_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_c_12 : Ref sig .tc := ⟨.hbm, 96, rfl⟩
abbrev main_v68 : Ref sig .tc := ⟨.hbm, 97, rfl⟩
abbrev main_v69 : Ref sig .tc := ⟨.hbm, 98, rfl⟩
abbrev main_c_13 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩

abbrev nD : Nat := 1
abbrev τ : Topo := Topo.v7x

variable {F : FTy → Type} [FloatOps F]

class Facts₀ : Prop where
  slices_S2x16000000_S1x16000000_0_0 : S2x16000000.Slices ![0, 0] S1x16000000
  shapeCasts_S1x16000000_S16000000 : S1x16000000.ShapeCasts S16000000
  concatenates_S16000000_S500000_S16500000_d0 : Shape.Concatenates [S16000000, S500000] S16500000 0
  slices_S2x16000000_S1x16000000_1_0 : S2x16000000.Slices ![1, 0] S1x16000000
  bcast_S_S16500000 : S_.BroadcastsInDim S16500000 (![] : Fin 0 → Fin S16500000.rank)
  bcast_S_S500000 : S_.BroadcastsInDim S500000 (![] : Fin 0 → Fin S500000.rank)
  bcast_S16500000_S16500000x1_0 : S16500000.BroadcastsInDim S16500000x1 (![0] : Fin 1 → Fin S16500000x1.rank)
  bcast_S16500000x1_S16500000x4_0_1 : S16500000x1.BroadcastsInDim S16500000x4 (![0, 1] : Fin 2 → Fin S16500000x4.rank)
  bcast_S_S500000x4 : S_.BroadcastsInDim S500000x4 (![] : Fin 0 → Fin S500000x4.rank)
  bcast_S4_S1x4_1 : S4.BroadcastsInDim S1x4 (![1] : Fin 1 → Fin S1x4.rank)
  bcast_S1x4_S500000x4_0_1 : S1x4.BroadcastsInDim S500000x4 (![0, 1] : Fin 2 → Fin S500000x4.rank)
  bcast_S16500000x1_S16500000x2_0_1 : S16500000x1.BroadcastsInDim S16500000x2 (![0, 1] : Fin 2 → Fin S16500000x2.rank)
  bcast_S_S500000x2 : S_.BroadcastsInDim S500000x2 (![] : Fin 0 → Fin S500000x2.rank)
  bcast_S2_S1x2_1 : S2.BroadcastsInDim S1x2 (![1] : Fin 1 → Fin S1x2.rank)
  bcast_S1x2_S500000x2_0_1 : S1x2.BroadcastsInDim S500000x2 (![0, 1] : Fin 2 → Fin S500000x2.rank)
  scatter_S500000_S16500000x1_S16500000_n_0_0_1_wf : ScatterDims.WF S500000 S16500000x1 S16500000 [] [0] [0] 1
  gather_S500000_S16500000x1_S16500000_n_0_n_n_0_1_1_wf : GatherDims.WF S500000 S16500000x1 S16500000 [] [0] [] [0] [] 1 ![1]
  dot_S500000x128_S128x4_S500000x4_1_0_0_1_n_n_wf : DotDims.WF S500000x128 S128x4 S500000x4 [1] [0] [0] [1] [] []
  gather_S500000x4_S16500000x1_S16500000x4_1_0_n_n_0_1_14_wf : GatherDims.WF S500000x4 S16500000x1 S16500000x4 [1] [0] [] [0] [] 1 ![1, 4]
  scatter_S500000x4_S16500000x1_S16500000x4_1_0_0_1_wf : ScatterDims.WF S500000x4 S16500000x1 S16500000x4 [1] [0] [0] 1
  dot_S500000x4_S4x4_S500000x4_1_0_0_1_n_n_wf : DotDims.WF S500000x4 S4x4 S500000x4 [1] [0] [0] [1] [] []
  dot_S500000x4_S4x2_S500000x2_1_0_0_1_n_n_wf : DotDims.WF S500000x4 S4x2 S500000x2 [1] [0] [0] [1] [] []
  gather_S500000x2_S16500000x1_S16500000x2_1_0_n_n_0_1_12_wf : GatherDims.WF S500000x2 S16500000x1 S16500000x2 [1] [0] [] [0] [] 1 ![1, 2]
  scatter_S500000x2_S16500000x1_S16500000x2_1_0_0_1_wf : ScatterDims.WF S500000x2 S16500000x1 S16500000x2 [1] [0] [0] 1

variable [Facts₀]

def scatter_S500000_S16500000x1_S16500000_n_0_0_1 : ScatterDims S500000 S16500000x1 S16500000 where
  updateWindowDims := []
  insertedWindowDims := [0]
  scatterDimsToOperandDims := [0]
  indexVectorDim := 1
  wf := scatter_S500000_S16500000x1_S16500000_n_0_0_1_wf
def gather_S500000_S16500000x1_S16500000_n_0_n_n_0_1_1 : GatherDims S500000 S16500000x1 S16500000 where
  offsetDims := []
  collapsedSliceDims := [0]
  operandBatchingDims := []
  startIndicesBatchingDims := []
  startIndexMap := [0]
  indexVectorDim := 1
  sliceSizes := ![1]
  wf := gather_S500000_S16500000x1_S16500000_n_0_n_n_0_1_1_wf
def dot_S500000x128_S128x4_S500000x4_1_0_0_1_n_n : DotDims S500000x128 S128x4 S500000x4 where
  lhsContracting := [1]
  rhsContracting := [0]
  lhsNonContracting := [0]
  rhsNonContracting := [1]
  lhsBatch := []
  rhsBatch := []
  wf := dot_S500000x128_S128x4_S500000x4_1_0_0_1_n_n_wf
def gather_S500000x4_S16500000x1_S16500000x4_1_0_n_n_0_1_14 : GatherDims S500000x4 S16500000x1 S16500000x4 where
  offsetDims := [1]
  collapsedSliceDims := [0]
  operandBatchingDims := []
  startIndicesBatchingDims := []
  startIndexMap := [0]
  indexVectorDim := 1
  sliceSizes := ![1, 4]
  wf := gather_S500000x4_S16500000x1_S16500000x4_1_0_n_n_0_1_14_wf
def scatter_S500000x4_S16500000x1_S16500000x4_1_0_0_1 : ScatterDims S500000x4 S16500000x1 S16500000x4 where
  updateWindowDims := [1]
  insertedWindowDims := [0]
  scatterDimsToOperandDims := [0]
  indexVectorDim := 1
  wf := scatter_S500000x4_S16500000x1_S16500000x4_1_0_0_1_wf
def dot_S500000x4_S4x4_S500000x4_1_0_0_1_n_n : DotDims S500000x4 S4x4 S500000x4 where
  lhsContracting := [1]
  rhsContracting := [0]
  lhsNonContracting := [0]
  rhsNonContracting := [1]
  lhsBatch := []
  rhsBatch := []
  wf := dot_S500000x4_S4x4_S500000x4_1_0_0_1_n_n_wf
def dot_S500000x4_S4x2_S500000x2_1_0_0_1_n_n : DotDims S500000x4 S4x2 S500000x2 where
  lhsContracting := [1]
  rhsContracting := [0]
  lhsNonContracting := [0]
  rhsNonContracting := [1]
  lhsBatch := []
  rhsBatch := []
  wf := dot_S500000x4_S4x2_S500000x2_1_0_0_1_n_n_wf
def gather_S500000x2_S16500000x1_S16500000x2_1_0_n_n_0_1_12 : GatherDims S500000x2 S16500000x1 S16500000x2 where
  offsetDims := [1]
  collapsedSliceDims := [0]
  operandBatchingDims := []
  startIndicesBatchingDims := []
  startIndexMap := [0]
  indexVectorDim := 1
  sliceSizes := ![1, 2]
  wf := gather_S500000x2_S16500000x1_S16500000x2_1_0_n_n_0_1_12_wf
def scatter_S500000x2_S16500000x1_S16500000x2_1_0_0_1 : ScatterDims S500000x2 S16500000x1 S16500000x2 where
  updateWindowDims := [1]
  insertedWindowDims := [0]
  scatterDimsToOperandDims := [0]
  indexVectorDim := 1
  wf := scatter_S500000x2_S16500000x1_S16500000x2_1_0_0_1_wf

class Facts : Prop extends Facts₀ where

variable [Facts]
-- ==== Proof.Stages.lean ====
/-
  A three-layer graph convolution, written as named stages over the input arrays.

  The edge list `e` (two rows of node numbers) gets one self loop per node: `srcOf e` and `dstOf e` are its two rows,
  each followed by 0, 1, …, n-1. The degree of a node counts the edges that end in it (`degOf`), `dinvOf` is
  deg^(-1/2) where the degree is positive and 0 elsewhere, and the weight of an edge is the product of that number at
  its two ends (`normOf`, kept as a one-column array). A node number is read cyclically when it is negative
  (`wrapIdx`). One layer takes node features `h` that a dense map has already produced, reads them at every edge's
  source, scales each by the edge's weight, sums the results at the edge's target and adds the bias
  (`agg4`, `agg2`: four and two features); `relu4` is the positive part. The dense maps are plain matrix products
  (`dense0`, `dense1`, `dense2`), and `gcn` is the whole network: dense, aggregate, relu, twice, then dense and aggregate.

  Every stage is the host operations of the printed programs, in their order; nothing here evaluates any of them.
-/
import proofs.«161731_j28269474742564_1_alg».proof.Proof.Gen.KernelIdeal

noncomputable section

namespace Cert.Gcn

open Idealize.ShloMosaic Idealize.ShloMosaic.TcCoe Cert.KernelIdeal Cert.KernelIdeal.Facts₀

variable {F : FTy → Type} [FloatOps F]

/-- The edges' source nodes, followed by every node once (the self loops). -/
def srcOf (e : (⟨S2x16000000, .i32⟩ : BufTy).Contents (Elt F)) : (⟨S16500000, .i32⟩ : BufTy).Contents (Elt F) :=
  concatenate S16500000 0 [⟨S16000000, (shapeCast _ (extractStridedSlice S1x16000000 ![0, 0] e slices_S2x16000000_S1x16000000_0_0) shapeCasts_S1x16000000_S16000000)⟩, ⟨S500000, (iotaInDim S500000 32 0)⟩] concatenates_S16000000_S500000_S16500000_d0

/-- The edges' target nodes, followed by every node once (the self loops). -/
def dstOf (e : (⟨S2x16000000, .i32⟩ : BufTy).Contents (Elt F)) : (⟨S16500000, .i32⟩ : BufTy).Contents (Elt F) :=
  concatenate S16500000 0 [⟨S16000000, (shapeCast _ (extractStridedSlice S1x16000000 ![1, 0] e slices_S2x16000000_S1x16000000_1_0) shapeCasts_S1x16000000_S16000000)⟩, ⟨S500000, (iotaInDim S500000 32 0)⟩] concatenates_S16000000_S500000_S16500000_d0

/-- How many edges (self loops included) end in each node. -/
def degOf (e : (⟨S2x16000000, .i32⟩ : BufTy).Contents (Elt F)) : (⟨S500000, .f32⟩ : BufTy).Contents (Elt F) :=
  Host.scatterAdd scatter_S500000_S16500000x1_S16500000_n_0_0_1 (broadcastInDim S500000 ![] bcast_S_S500000 (constant S_ .f32 0x00000000#32)) (broadcastInDim S16500000x1 ![0] bcast_S16500000_S16500000x1_0 (dstOf e)) (broadcastInDim S16500000 ![] bcast_S_S16500000 (constant S_ .f32 0x3F800000#32))

/-- deg^(-1/2) where the degree is positive, 0 elsewhere. -/
def dinvOf (e : (⟨S2x16000000, .i32⟩ : BufTy).Contents (Elt F)) : (⟨S500000, .f32⟩ : BufTy).Contents (Elt F) :=
  select (cmpf .ogt (degOf e) (broadcastInDim S500000 ![] bcast_S_S500000 (constant S_ .f32 0x00000000#32))) (Host.rsqrt (degOf e)) (broadcastInDim S500000 ![] bcast_S_S500000 (id (constant S_ .f32 0x00000000#32)))

/-- A node number read cyclically: a negative one counts from the end. -/
def wrapIdx (v : (⟨S16500000, .i32⟩ : BufTy).Contents (Elt F)) : (⟨S16500000, .i32⟩ : BufTy).Contents (Elt F) :=
  select (cmpi .slt v (broadcastInDim S16500000 ![] bcast_S_S16500000 (constantI S_ 32 0#32))) (addi v (broadcastInDim S16500000 ![] bcast_S_S16500000 (constantI S_ 32 500000#32))) v

/-- Each edge's weight, dinv at its source times dinv at its target, as a one-column array. -/
def normOf (e : (⟨S2x16000000, .i32⟩ : BufTy).Contents (Elt F)) : (⟨S16500000x1, .f32⟩ : BufTy).Contents (Elt F) :=
  broadcastInDim S16500000x1 ![0] bcast_S16500000_S16500000x1_0 (mulf (Host.gather gather_S500000_S16500000x1_S16500000_n_0_n_n_0_1_1 (dinvOf e) (broadcastInDim S16500000x1 ![0] bcast_S16500000_S16500000x1_0 (wrapIdx (srcOf e)))) (Host.gather gather_S500000_S16500000x1_S16500000_n_0_n_n_0_1_1 (dinvOf e) (broadcastInDim S16500000x1 ![0] bcast_S16500000_S16500000x1_0 (wrapIdx (dstOf e)))))

/-- One aggregation over four features: the features at each edge's source, times the edge's weight, summed at the
    edge's target, plus the bias. -/
def agg4 (e : (⟨S2x16000000, .i32⟩ : BufTy).Contents (Elt F)) (h : (⟨S500000x4, .f32⟩ : BufTy).Contents (Elt F)) (b : (⟨S4, .f32⟩ : BufTy).Contents (Elt F)) : (⟨S500000x4, .f32⟩ : BufTy).Contents (Elt F) :=
  addf (Host.scatterAdd scatter_S500000x4_S16500000x1_S16500000x4_1_0_0_1 (broadcastInDim S500000x4 ![] bcast_S_S500000x4 (constant S_ .f32 0x00000000#32)) (broadcastInDim S16500000x1 ![0] bcast_S16500000_S16500000x1_0 (dstOf e)) (mulf (broadcastInDim S16500000x4 ![0, 1] bcast_S16500000x1_S16500000x4_0_1 (normOf e)) (Host.gather gather_S500000x4_S16500000x1_S16500000x4_1_0_n_n_0_1_14 h (broadcastInDim S16500000x1 ![0] bcast_S16500000_S16500000x1_0 (wrapIdx (srcOf e)))))) (broadcastInDim S500000x4 ![0, 1] bcast_S1x4_S500000x4_0_1 (broadcastInDim S1x4 ![1] bcast_S4_S1x4_1 b))

/-- The same aggregation over two features. -/
def agg2 (e : (⟨S2x16000000, .i32⟩ : BufTy).Contents (Elt F)) (h : (⟨S500000x2, .f32⟩ : BufTy).Contents (Elt F)) (b : (⟨S2, .f32⟩ : BufTy).Contents (Elt F)) : (⟨S500000x2, .f32⟩ : BufTy).Contents (Elt F) :=
  addf (Host.scatterAdd scatter_S500000x2_S16500000x1_S16500000x2_1_0_0_1 (broadcastInDim S500000x2 ![] bcast_S_S500000x2 (constant S_ .f32 0x00000000#32)) (broadcastInDim S16500000x1 ![0] bcast_S16500000_S16500000x1_0 (dstOf e)) (mulf (broadcastInDim S16500000x2 ![0, 1] bcast_S16500000x1_S16500000x2_0_1 (normOf e)) (Host.gather gather_S500000x2_S16500000x1_S16500000x2_1_0_n_n_0_1_12 h (broadcastInDim S16500000x1 ![0] bcast_S16500000_S16500000x1_0 (wrapIdx (srcOf e)))))) (broadcastInDim S500000x2 ![0, 1] bcast_S1x2_S500000x2_0_1 (broadcastInDim S1x2 ![1] bcast_S2_S1x2_1 b))

/-- The positive part, entry by entry. -/
def relu4 (z : (⟨S500000x4, .f32⟩ : BufTy).Contents (Elt F)) : (⟨S500000x4, .f32⟩ : BufTy).Contents (Elt F) :=
  maximumf z (broadcastInDim S500000x4 ![] bcast_S_S500000x4 (constant S_ .f32 0x00000000#32))

/-- The first dense map: 128 input features to 4. -/
def dense0 (x : (⟨S500000x128, .f32⟩ : BufTy).Contents (Elt F)) (w : (⟨S128x4, .f32⟩ : BufTy).Contents (Elt F)) : (⟨S500000x4, .f32⟩ : BufTy).Contents (Elt F) :=
  Host.dotGeneral (DotDims.plain 500000 128 4) none x w

/-- The second dense map: 4 features to 4. -/
def dense1 (h : (⟨S500000x4, .f32⟩ : BufTy).Contents (Elt F)) (w : (⟨S4x4, .f32⟩ : BufTy).Contents (Elt F)) : (⟨S500000x4, .f32⟩ : BufTy).Contents (Elt F) :=
  Host.dotGeneral (DotDims.plain 500000 4 4) none h w

/-- The third dense map: 4 features to 2. -/
def dense2 (h : (⟨S500000x4, .f32⟩ : BufTy).Contents (Elt F)) (w : (⟨S4x2, .f32⟩ : BufTy).Contents (Elt F)) : (⟨S500000x2, .f32⟩ : BufTy).Contents (Elt F) :=
  Host.dotGeneral (DotDims.plain 500000 4 2) none h w

/-- The first layer's output: dense, aggregate, positive part. -/
def layer1 (x : (⟨S500000x128, .f32⟩ : BufTy).Contents (Elt F)) (e : (⟨S2x16000000, .i32⟩ : BufTy).Contents (Elt F)) (w1 : (⟨S128x4, .f32⟩ : BufTy).Contents (Elt F)) (b1 : (⟨S4, .f32⟩ : BufTy).Contents (Elt F)) : (⟨S500000x4, .f32⟩ : BufTy).Contents (Elt F) :=
  relu4 (agg4 e (dense0 x w1) b1)

/-- The second layer's output from the first's. -/
def layer2 (h : (⟨S500000x4, .f32⟩ : BufTy).Contents (Elt F)) (e : (⟨S2x16000000, .i32⟩ : BufTy).Contents (Elt F)) (w2 : (⟨S4x4, .f32⟩ : BufTy).Contents (Elt F)) (b2 : (⟨S4, .f32⟩ : BufTy).Contents (Elt F)) : (⟨S500000x4, .f32⟩ : BufTy).Contents (Elt F) :=
  relu4 (agg4 e (dense1 h w2) b2)

/-- The network: two layers with a positive part, then a third without. -/
def gcn (x : (⟨S500000x128, .f32⟩ : BufTy).Contents (Elt F)) (e : (⟨S2x16000000, .i32⟩ : BufTy).Contents (Elt F)) (w1 : (⟨S128x4, .f32⟩ : BufTy).Contents (Elt F)) (b1 : (⟨S4, .f32⟩ : BufTy).Contents (Elt F))
    (w2 : (⟨S4x4, .f32⟩ : BufTy).Contents (Elt F)) (b2 : (⟨S4, .f32⟩ : BufTy).Contents (Elt F)) (w3 : (⟨S4x2, .f32⟩ : BufTy).Contents (Elt F)) (b3 : (⟨S2, .f32⟩ : BufTy).Contents (Elt F)) : (⟨S500000x2, .f32⟩ : BufTy).Contents (Elt F) :=
  agg2 e (dense2 (layer2 (layer1 x e w1 b1) e w2 b2) w3) b3

end Cert.Gcn

end
-- ==== Proof.Fold0.lean ====
/-
  The buffers when the first dense region is entered. The host operations before it compute, from the edge list alone,
  the sources and targets with their self loops and every edge's weight; the input arrays are still as launched.
  The weights are read in three steps, as the operations come: the degrees and their inverse roots, then the choice
  between the inverse root and zero, then the two reads at an edge's ends and their product.
-/
import proofs.«161731_j28269474742564_1_alg».proof.Proof.Gen.KernelIdeal.Frame
import proofs.«161731_j28269474742564_1_alg».proof.Proof.Stages
import Idealize.ShloMosaic.Lib.StableHlo.Run

set_option maxRecDepth 16384

noncomputable section

namespace Cert.Gcn

open Idealize.ShloMosaic Idealize.ShloMosaic.TcCoe Idealize.SL.Sem Idealize.ShloMosaic.StableHlo
open Cert.KernelIdeal Cert.KernelIdeal.Facts₀ Cert.KernelIdeal.Gen

variable {F : FTy → Type} [FloatOps F]
variable (m : (ℓ : Loc nD τ sig) → Buf (Elt F) ℓ) (ρ : Dev nD → PrngReg)

/-! ## After the first stretch: sources, targets, the degree's sign test and its inverse root -/

theorem W1_src (c : Dev nD) : W1 m ρ c (Proc.devRef .tc main_v3) = srcOf (m ((c : Thread nD τ).loc main_arg1)) := by
  show StableHlo.after hostOps0 (W0 m ρ c) (Proc.devRef .tc main_v3) = _
  after_results
  rfl
theorem W1_dst (c : Dev nD) : W1 m ρ c (Proc.devRef .tc main_v6) = dstOf (m ((c : Thread nD τ).loc main_arg1)) := by
  show StableHlo.after hostOps0 (W0 m ρ c) (Proc.devRef .tc main_v6) = _
  after_results
  rfl
/-- Where the degree is positive. -/
theorem W1_pos (c : Dev nD) : W1 m ρ c (Proc.devRef .tc main_v12)
    = cmpf .ogt (degOf (m ((c : Thread nD τ).loc main_arg1))) (broadcastInDim S500000 ![] Facts₀.bcast_S_S500000 (constant S_ .f32 0x00000000#32)) := by
  show StableHlo.after hostOps0 (W0 m ρ c) (Proc.devRef .tc main_v12) = _
  after_results
  rfl
/-- The degree's inverse root. -/
theorem W1_rsqrt (c : Dev nD) : W1 m ρ c (Proc.devRef .tc main_v13) = Host.rsqrt (degOf (m ((c : Thread nD τ).loc main_arg1))) := by
  show StableHlo.after hostOps0 (W0 m ρ c) (Proc.devRef .tc main_v13) = _
  after_results
  rfl
theorem W1_zero (c : Dev nD) : W1 m ρ c (Proc.devRef .tc main_cst_2) = constant S_ .f32 0x00000000#32 := by
  show StableHlo.after hostOps0 (W0 m ρ c) (Proc.devRef .tc main_cst_2) = _
  after_results

/-! ## After the choice: the inverse root where the degree is positive, zero elsewhere -/

theorem W2_dinv (c : Dev nD) : W2 m ρ c (Proc.devRef .tc main_v14) = dinvOf (m ((c : Thread nD τ).loc main_arg1)) := by
  have h12 := W1_pos m ρ c
  have h13 := W1_rsqrt m ρ c
  have hz := W1_zero m ρ c
  show StableHlo.after hostOps0_1 (W1 m ρ c) (Proc.devRef .tc main_v14) = _
  generalize W1 m ρ c = V at h12 h13 hz ⊢
  after_results
  rw [h12, h13, hz]
  rfl
theorem W2_src (c : Dev nD) : W2 m ρ c (Proc.devRef .tc main_v3) = srcOf (m ((c : Thread nD τ).loc main_arg1)) := by
  have h := W1_src m ρ c
  show StableHlo.after hostOps0_1 (W1 m ρ c) (Proc.devRef .tc main_v3) = _
  generalize W1 m ρ c = V at h ⊢
  after_results
  exact h
theorem W2_dst (c : Dev nD) : W2 m ρ c (Proc.devRef .tc main_v6) = dstOf (m ((c : Thread nD τ).loc main_arg1)) := by
  have h := W1_dst m ρ c
  show StableHlo.after hostOps0_1 (W1 m ρ c) (Proc.devRef .tc main_v6) = _
  generalize W1 m ρ c = V at h ⊢
  after_results
  exact h

/-! ## At the first region's entry -/

/-- The weight buffer holds every edge's weight. -/
theorem W3_norm (c : Dev nD) : W3 m ρ c (Proc.devRef .tc main_v30) = normOf (m ((c : Thread nD τ).loc main_arg1)) := by
  have h14 := W2_dinv m ρ c
  have h3 := W2_src m ρ c
  have h6 := W2_dst m ρ c
  show StableHlo.after hostOps0_2 (W2 m ρ c) (Proc.devRef .tc main_v30) = _
  generalize W2 m ρ c = V at h14 h3 h6 ⊢
  after_results_simp
  rw [h14, h3, h6]
  rfl
theorem W3_src (c : Dev nD) : W3 m ρ c (Proc.devRef .tc main_v3) = srcOf (m ((c : Thread nD τ).loc main_arg1)) := by
  have h := W2_src m ρ c
  show StableHlo.after hostOps0_2 (W2 m ρ c) (Proc.devRef .tc main_v3) = _
  generalize W2 m ρ c = V at h ⊢
  after_results
  exact h
theorem W3_dst (c : Dev nD) : W3 m ρ c (Proc.devRef .tc main_v6) = dstOf (m ((c : Thread nD τ).loc main_arg1)) := by
  have h := W2_dst m ρ c
  show StableHlo.after hostOps0_2 (W2 m ρ c) (Proc.devRef .tc main_v6) = _
  generalize W2 m ρ c = V at h ⊢
  after_results
  exact h

/-- No host operation writes an input array: each still holds what the launch gave it. -/
theorem W3_arg0 (c : Dev nD) : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  after_results
theorem W3_arg2 (c : Dev nD) : W3 m ρ c (Proc.devRef .tc main_arg2) = (m ((c : Thread nD τ).loc main_arg2)) := by
  show StableHlo.after hostOps0_2 (StableHlo.after hostOps0_1 (StableHlo.after hostOps0 (W0 m ρ c))) (Proc.devRef .tc main_arg2) = _
  after_results
theorem W3_arg3 (c : Dev nD) : W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  after_results
theorem W3_arg4 (c : Dev nD) : W3 m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  after_results
theorem W3_arg5 (c : Dev nD) : W3 m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  after_results
theorem W3_arg6 (c : Dev nD) : W3 m ρ c (Proc.devRef .tc main_arg6) = (m ((c : Thread nD τ).loc main_arg6)) := by
  show StableHlo.after hostOps0_2 (StableHlo.after hostOps0_1 (StableHlo.after hostOps0 (W0 m ρ c))) (Proc.devRef .tc main_arg6) = _
  after_results
theorem W3_arg7 (c : Dev nD) : W3 m ρ c (Proc.devRef .tc main_arg7) = (m ((c : Thread nD τ).loc main_arg7)) := by
  show StableHlo.after hostOps0_2 (StableHlo.after hostOps0_1 (StableHlo.after hostOps0 (W0 m ρ c))) (Proc.devRef .tc main_arg7) = _
  after_results

end Cert.Gcn

end
-- ==== Proof.Fold1.lean ====
/-
  From the first dense region's exit to the second's. A region writes its output array and nothing else, so the sources,
  targets, weights and input arrays pass through it unchanged; the host operations between the two regions read the first
  region's output at every edge's source, scale by the edge's weight, sum at the edge's target, add the bias and take the
  positive part: the first layer's output, from whatever the first region left.
-/
import proofs.«161731_j28269474742564_1_alg».proof.Proof.Gen.KernelIdeal.Frame
import proofs.«161731_j28269474742564_1_alg».proof.Proof.Stages
import proofs.«161731_j28269474742564_1_alg».proof.Proof.Fold0
import Idealize.ShloMosaic.Lib.StableHlo.Run

set_option maxRecDepth 16384

noncomputable section

namespace Cert.Gcn

open Idealize.ShloMosaic Idealize.ShloMosaic.TcCoe Idealize.SL.Sem Idealize.ShloMosaic.StableHlo
open Cert.KernelIdeal Cert.KernelIdeal.Facts₀ Cert.KernelIdeal.Gen

variable {F : FTy → Type} [FloatOps F]
variable (m : (ℓ : Loc nD τ sig) → Buf (Elt F) ℓ) (ρ : Dev nD → PrngReg)

/-! ## After the first region -/

theorem W4_src (c : Dev nD) : W4 m ρ c (Proc.devRef .tc main_v3) = srcOf (m ((c : Thread nD τ).loc main_arg1)) :=
  (W4_of_ne m ρ c main_v3 (by decide)).trans (W3_src m ρ c)
theorem W4_dst (c : Dev nD) : W4 m ρ c (Proc.devRef .tc main_v6) = dstOf (m ((c : Thread nD τ).loc main_arg1)) :=
  (W4_of_ne m ρ c main_v6 (by decide)).trans (W3_dst m ρ c)
theorem W4_norm (c : Dev nD) : W4 m ρ c (Proc.devRef .tc main_v30) = normOf (m ((c : Thread nD τ).loc main_arg1)) :=
  (W4_of_ne m ρ c main_v30 (by decide)).trans (W3_norm m ρ c)
theorem W4_arg3 (c : Dev nD) : W4 m ρ c (Proc.devRef .tc main_arg3) = (m ((c : Thread nD τ).loc main_arg3)) :=
  (W4_of_ne m ρ c main_arg3 (by decide)).trans (W3_arg3 m ρ c)
theorem W4_arg4 (c : Dev nD) : W4 m ρ c (Proc.devRef .tc main_arg4) = (m ((c : Thread nD τ).loc main_arg4)) :=
  (W4_of_ne m ρ c main_arg4 (by decide)).trans (W3_arg4 m ρ c)
theorem W4_arg5 (c : Dev nD) : W4 m ρ c (Proc.devRef .tc main_arg5) = (m ((c : Thread nD τ).loc main_arg5)) :=
  (W4_of_ne m ρ c main_arg5 (by decide)).trans (W3_arg5 m ρ c)
theorem W4_arg6 (c : Dev nD) : W4 m ρ c (Proc.devRef .tc main_arg6) = (m ((c : Thread nD τ).loc main_arg6)) :=
  (W4_of_ne m ρ c main_arg6 (by decide)).trans (W3_arg6 m ρ c)
theorem W4_arg7 (c : Dev nD) : W4 m ρ c (Proc.devRef .tc main_arg7) = (m ((c : Thread nD τ).loc main_arg7)) :=
  (W4_of_ne m ρ c main_arg7 (by decide)).trans (W3_arg7 m ρ c)

/-! ## At the second region's entry -/

/-- The first layer's output, from what the first region left in its output array. -/
theorem W6_h (c : Dev nD) : W6 m ρ c (Proc.devRef .tc main_v47)
    = relu4 (agg4 (m ((c : Thread nD τ).loc main_arg1)) (W4 m ρ c (Proc.devRef .tc main_v31)) (m ((c : Thread nD τ).loc main_arg3))) := by
  show StableHlo.after hostOps1_1 (StableHlo.after hostOps1 (W4 m ρ c)) (Proc.devRef .tc main_v47) = _
  after_results_simp
  rw [W4_src m ρ c, W4_dst m ρ c, W4_norm m ρ c, W4_arg3 m ρ c]
  rfl

theorem W6_src (c : Dev nD) : W6 m ρ c (Proc.devRef .tc main_v3) = srcOf (m ((c : Thread nD τ).loc main_arg1)) := by
  show StableHlo.after hostOps1_1 (StableHlo.after hostOps1 (W4 m ρ c)) (Proc.devRef .tc main_v3) = _
  after_results_simp
  exact W4_src m ρ c
theorem W6_dst (c : Dev nD) : W6 m ρ c (Proc.devRef .tc main_v6) = dstOf (m ((c : Thread nD τ).loc main_arg1)) := by
  show StableHlo.after hostOps1_1 (StableHlo.after hostOps1 (W4 m ρ c)) (Proc.devRef .tc main_v6) = _
  after_results_simp
  exact W4_dst m ρ c
theorem W6_norm (c : Dev nD) : W6 m ρ c (Proc.devRef .tc main_v30) = normOf (m ((c : Thread nD τ).loc main_arg1)) := by
  show StableHlo.after hostOps1_1 (StableHlo.after hostOps1 (W4 m ρ c)) (Proc.devRef .tc main_v30) = _
  after_results_simp
  exact W4_norm m ρ c
theorem W6_arg4 (c : Dev nD) : W6 m ρ c (Proc.devRef .tc main_arg4) = (m ((c : Thread nD τ).loc main_arg4)) := by
  show StableHlo.after hostOps1_1 (StableHlo.after hostOps1 (W4 m ρ c)) (Proc.devRef .tc main_arg4) = _
  after_results_simp
  exact W4_arg4 m ρ c
theorem W6_arg5 (c : Dev nD) : W6 m ρ c (Proc.devRef .tc main_arg5) = (m ((c : Thread nD τ).loc main_arg5)) := by
  show StableHlo.after hostOps1_1 (StableHlo.after hostOps1 (W4 m ρ c)) (Proc.devRef .tc main_arg5) = _
  after_results_simp
  exact W4_arg5 m ρ c
theorem W6_arg6 (c : Dev nD) : W6 m ρ c (Proc.devRef .tc main_arg6) = (m ((c : Thread nD τ).loc main_arg6)) := by
  show StableHlo.after hostOps1_1 (StableHlo.after hostOps1 (W4 m ρ c)) (Proc.devRef .tc main_arg6) = _
  after_results_simp
  exact W4_arg6 m ρ c
theorem W6_arg7 (c : Dev nD) : W6 m ρ c (Proc.devRef .tc main_arg7) = (m ((c : Thread nD τ).loc main_arg7)) := by
  show StableHlo.after hostOps1_1 (StableHlo.after hostOps1 (W4 m ρ c)) (Proc.devRef .tc main_arg7) = _
  after_results_simp
  exact W4_arg7 m ρ c

/-! ## After the second region -/

theorem W7_src (c : Dev nD) : W7 m ρ c (Proc.devRef .tc main_v3) = srcOf (m ((c : Thread nD τ).loc main_arg1)) :=
  (W7_of_ne m ρ c main_v3 (by decide)).trans (W6_src m ρ c)
theorem W7_dst (c : Dev nD) : W7 m ρ c (Proc.devRef .tc main_v6) = dstOf (m ((c : Thread nD τ).loc main_arg1)) :=
  (W7_of_ne m ρ c main_v6 (by decide)).trans (W6_dst m ρ c)
theorem W7_norm (c : Dev nD) : W7 m ρ c (Proc.devRef .tc main_v30) = normOf (m ((c : Thread nD τ).loc main_arg1)) :=
  (W7_of_ne m ρ c main_v30 (by decide)).trans (W6_norm m ρ c)
theorem W7_arg5 (c : Dev nD) : W7 m ρ c (Proc.devRef .tc main_arg5) = (m ((c : Thread nD τ).loc main_arg5)) :=
  (W7_of_ne m ρ c main_arg5 (by decide)).trans (W6_arg5 m ρ c)
theorem W7_arg6 (c : Dev nD) : W7 m ρ c (Proc.devRef .tc main_arg6) = (m ((c : Thread nD τ).loc main_arg6)) :=
  (W7_of_ne m ρ c main_arg6 (by decide)).trans (W6_arg6 m ρ c)
theorem W7_arg7 (c : Dev nD) : W7 m ρ c (Proc.devRef .tc main_arg7) = (m ((c : Thread nD τ).loc main_arg7)) :=
  (W7_of_ne m ρ c main_arg7 (by decide)).trans (W6_arg7 m ρ c)

end Cert.Gcn

end
-- ==== Proof.Fold2.lean ====
/-
  From the second dense region's exit to the end. The host operations after the second region form the second layer's
  output from what that region left, exactly as the first layer's was formed; after the third region the last host
  operations aggregate once more, over two features and with no positive part: the network's result.
-/
import proofs.«161731_j28269474742564_1_alg».proof.Proof.Gen.KernelIdeal.Frame
import proofs.«161731_j28269474742564_1_alg».proof.Proof.Stages
import proofs.«161731_j28269474742564_1_alg».proof.Proof.Fold1
import Idealize.ShloMosaic.Lib.StableHlo.Run

set_option maxRecDepth 16384

noncomputable section

namespace Cert.Gcn

open Idealize.ShloMosaic Idealize.ShloMosaic.TcCoe Idealize.SL.Sem Idealize.ShloMosaic.StableHlo
open Cert.KernelIdeal Cert.KernelIdeal.Facts₀ Cert.KernelIdeal.Gen

variable {F : FTy → Type} [FloatOps F]
variable (m : (ℓ : Loc nD τ sig) → Buf (Elt F) ℓ) (ρ : Dev nD → PrngReg)

/-! ## At the third region's entry -/

/-- The second layer's output, from what the second region left in its output array. -/
theorem W9_h (c : Dev nD) : W9 m ρ c (Proc.devRef .tc main_v64)
    = relu4 (agg4 (m ((c : Thread nD τ).loc main_arg1)) (W7 m ρ c (Proc.devRef .tc main_v48)) (m ((c : Thread nD τ).loc main_arg5))) := by
  show StableHlo.after hostOps2_1 (StableHlo.after hostOps2 (W7 m ρ c)) (Proc.devRef .tc main_v64) = _
  after_results_simp
  rw [W7_src m ρ c, W7_dst m ρ c, W7_norm m ρ c, W7_arg5 m ρ c]
  rfl

theorem W9_src (c : Dev nD) : W9 m ρ c (Proc.devRef .tc main_v3) = srcOf (m ((c : Thread nD τ).loc main_arg1)) := by
  show StableHlo.after hostOps2_1 (StableHlo.after hostOps2 (W7 m ρ c)) (Proc.devRef .tc main_v3) = _
  after_results_simp
  exact W7_src m ρ c
theorem W9_dst (c : Dev nD) : W9 m ρ c (Proc.devRef .tc main_v6) = dstOf (m ((c : Thread nD τ).loc main_arg1)) := by
  show StableHlo.after hostOps2_1 (StableHlo.after hostOps2 (W7 m ρ c)) (Proc.devRef .tc main_v6) = _
  after_results_simp
  exact W7_dst m ρ c
theorem W9_norm (c : Dev nD) : W9 m ρ c (Proc.devRef .tc main_v30) = normOf (m ((c : Thread nD τ).loc main_arg1)) := by
  show StableHlo.after hostOps2_1 (StableHlo.after hostOps2 (W7 m ρ c)) (Proc.devRef .tc main_v30) = _
  after_results_simp
  exact W7_norm m ρ c
theorem W9_arg6 (c : Dev nD) : W9 m ρ c (Proc.devRef .tc main_arg6) = (m ((c : Thread nD τ).loc main_arg6)) := by
  show StableHlo.after hostOps2_1 (StableHlo.after hostOps2 (W7 m ρ c)) (Proc.devRef .tc main_arg6) = _
  after_results_simp
  exact W7_arg6 m ρ c
theorem W9_arg7 (c : Dev nD) : W9 m ρ c (Proc.devRef .tc main_arg7) = (m ((c : Thread nD τ).loc main_arg7)) := by
  show StableHlo.after hostOps2_1 (StableHlo.after hostOps2 (W7 m ρ c)) (Proc.devRef .tc main_arg7) = _
  after_results_simp
  exact W7_arg7 m ρ c

/-! ## After the third region -/

theorem W10_src (c : Dev nD) : W10 m ρ c (Proc.devRef .tc main_v3) = srcOf (m ((c : Thread nD τ).loc main_arg1)) :=
  (W10_of_ne m ρ c main_v3 (by decide)).trans (W9_src m ρ c)
theorem W10_dst (c : Dev nD) : W10 m ρ c (Proc.devRef .tc main_v6) = dstOf (m ((c : Thread nD τ).loc main_arg1)) :=
  (W10_of_ne m ρ c main_v6 (by decide)).trans (W9_dst m ρ c)
theorem W10_norm (c : Dev nD) : W10 m ρ c (Proc.devRef .tc main_v30) = normOf (m ((c : Thread nD τ).loc main_arg1)) :=
  (W10_of_ne m ρ c main_v30 (by decide)).trans (W9_norm m ρ c)
theorem W10_arg7 (c : Dev nD) : W10 m ρ c (Proc.devRef .tc main_arg7) = (m ((c : Thread nD τ).loc main_arg7)) :=
  (W10_of_ne m ρ c main_arg7 (by decide)).trans (W9_arg7 m ρ c)

/-! ## The result -/

/-- The result buffer: the last aggregation of what the third region left. -/
theorem W11_out (c : Dev nD) : W11 m ρ c (Proc.devRef .tc main_v80)
    = agg2 (m ((c : Thread nD τ).loc main_arg1)) (W10 m ρ c (Proc.devRef .tc main_v65)) (m ((c : Thread nD τ).loc main_arg7)) := by
  show StableHlo.after hostOps3 (W10 m ρ c) (Proc.devRef .tc main_v80) = _
  after_results_simp
  rw [W10_src m ρ c, W10_dst m ρ c, W10_norm m ρ c, W10_arg7 m ρ c]
  rfl

end Cert.Gcn

end
-- ==== Proof.LibPlainMatmul.lean ====
/-
  Two general facts about vector operations read at an entry, at the ideal instance (floats are extended reals).

  * A plain `M × K` by `K × N` matrix product on the matrix unit into a zero accumulator, read at entry `(r, c)`,
    is the sum over `k` of `x[r, k] · w[k, c]`: the unit's dimension numbers contract the left operand's second axis
    with the right operand's first, so re-indexing the one-axis contraction by its coordinate gives the textbook sum.
  * A column (`[a, 1]`) broadcast to `[a, b]`, read at `(p, c)`, is the column's entry at row `p`.
-/
import Idealize.ShloMosaic.PureOps.Ideal.Laws
import Idealize.ShloMosaic.Lib.ValueIdx
import Idealize.ShloMosaic.Lib.Pipeline.Value

noncomputable section

open scoped BigOperators

namespace Cert.Gnn

open Idealize.ShloMosaic Idealize.ShloMosaic.ValueIdx

/-- The left operand's row coordinate is the result's row coordinate. -/
theorem plain_lhs_row (M K N : Nat) (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The right operand's column coordinate is the result's column coordinate. -/
theorem plain_rhs_col (M K N : Nat) (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- A plain matrix product into a zero accumulator, read at an entry, is the sum over the contracted index of the
    operands' products. -/
theorem plain_matmul_apply {φ₁ φ₂ : FTy} (M K N : Nat) (prec : Option ContractPrecision)
    (x : FVec Ideal ⟨2, ![M, K]⟩ φ₁) (w : FVec Ideal ⟨2, ![K, N]⟩ φ₂) (j : (⟨2, ![M, N]⟩ : Shape).Idx) :
    FloatOps.matmul (DotDims.plain M K N) prec x w (constant ⟨2, ![M, N]⟩ .f32 0x00000000#32) j
      = ∑ k : Fin K, x (ix2 (j 0) k) * w (ix2 k (j 1)) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact plain_lhs_row M K N _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact plain_rhs_col M K N _ _)
  rw [el, er]
  rfl

/-- A column broadcast over a row axis: an `[a, 1]` array broadcast to `[a, b]` reads, at `(p, c)`, the column's
    entry at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Gnn

end
-- ==== Proof.LibHostDot.lean ====
/-
  A plain `M × K` by `K × N` product on the host (`stablehlo.dot_general`, the left operand's second axis contracted with
  the right operand's first), read at an entry at the ideal instance (floats are extended reals): the sum over `k` of
  `x[p, k] · w[k, q]`. The one-axis contraction index is re-indexed by its coordinate.
-/
import proofs.«161731_j28269474742564_1_alg».proof.Proof.LibPlainMatmul
import Idealize.ShloMosaic.PureOps.Ideal.Laws
import Idealize.ShloMosaic.Lib.ValueIdx

noncomputable section

open scoped BigOperators

namespace Cert.HostDot

open Idealize.ShloMosaic Idealize.ShloMosaic.ValueIdx

/-- A plain host product at explicit coordinates, for any dimension record equal to the plain one. -/
theorem dotGeneral_ix2 {φ₁ φ₂ : FTy} {M K N : ℕ} (d : DotDims ⟨2, ![M, K]⟩ ⟨2, ![K, N]⟩ ⟨2, ![M, N]⟩)
    (hd : d = DotDims.plain M K N) (prec : Option ContractPrecision)
    (x : FVec Ideal ⟨2, ![M, K]⟩ φ₁) (w : FVec Ideal ⟨2, ![K, N]⟩ φ₂) (p : Fin M) (q : Fin N) :
    Host.dotGeneral d prec x w (ix2 p q) = ∑ k : Fin K, x (ix2 p k) * w (ix2 k q) := by
  subst hd
  show FloatOps.dotGeneral (DotDims.plain M K N) prec .single x w (ix2 p q) = _
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact Cert.Gnn.plain_lhs_row M K N _ _
      | ⟨1, _⟩ => exact ((DotDims.plain M K N).lhsIdx_val_of_single rfl _ _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl _ _).trans hk
      | ⟨1, _⟩ => exact Cert.Gnn.plain_rhs_col M K N _ _)
  rw [el, er]

end Cert.HostDot

end
-- ==== Proof.Region0.lean ====
/-
  The first matrix-product region, read as one array equation.

  The region walks a grid of fifty points. At point `t` it takes rows `[10000 t, 10000 t + 10000)` of the left array
  (500000 × 128), the whole right array (128 × 4), and writes rows `[10000 t, 10000 t + 10000)` of the result
  (500000 × 4) with the product of the row block and the right array. Over the extended reals the narrowing
  conversions are the identity and a product into a zero accumulator is the textbook sum over the contracted index,
  so entry `(p, q)` of the block written at `t` is `∑ k, A[10000 t + p, k] · W[k, q]`: entry `(10000 t + p, q)` of the
  plain product `A · W`. The fifty row blocks tile the result, hence after the region the result array IS `A · W`.
-/
import proofs.«161731_j28269474742564_1_alg».proof.Proof.Gen.KernelIdeal.Frame
import proofs.«161731_j28269474742564_1_alg».proof.Proof.LibPlainMatmul
import proofs.«161731_j28269474742564_1_alg».proof.Proof.LibHostDot
import Idealize.ShloMosaic.Lib.Pipeline.Value
import Idealize.ShloMosaic.Lib.ValueIdx
import Idealize.ShloMosaic.PureOps.Ideal.Laws

noncomputable section

open scoped BigOperators

namespace Cert.Gcn

open Idealize.ShloMosaic Idealize.ShloMosaic.ValueIdx Idealize.ShloMosaic.TcCoe Cert.KernelIdeal Cert.KernelIdeal.Gen
open Idealize.ShloMosaic.Pipeline (Dat)

/-- The matrix unit's dimension record of this region is the plain one: 10000 rows, 128 contracted, 4 columns. -/
theorem rec0 : dot_S10000x128_S128x4_S10000x4_1_0_0_1_n_n = DotDims.plain 10000 128 4 := rfl

/-- The body's payload at an entry: the conversions to the narrow format are the identity on extended reals, and a
    plain product into a zero accumulator is the sum over the contracted index. -/
theorem block_product0 (x0 : Vec Ideal S10000x128 .f32) (x1 : Vec Ideal S128x4 .f32) (p : Fin 10000) (q : Fin 4) :
    k0_pay1 x0 x1 (ix2 p q) = ∑ k : Fin 128, x0 (ix2 p k) * x1 (ix2 k q) := by
  unfold k0_pay1
  rw [rec0]
  exact Cert.Gnn.plain_matmul_apply 10000 128 4 none _ _ (ix2 p q)

/-- The index maps over the grid: the left operand's and the result's row blocks move with the point, the right
    operand's one block stays, and no block moves along the columns. -/
theorem grid_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- The body reads and writes its whole buffers: through offsets zero on both axes. -/
theorem zero_offsets0 : (![0, 0] : Fin 2 → Nat) = fun _ => 0 := funext fun a => by fin_cases a <;> rfl

/-- A row block of a product is the product of the row block: if `x0` is rows `[o, o + 10000)` of `A` and `x1` is
    all of `W`, the block product at `(p, q)` is the whole product at `(o + p, q)`. -/
theorem block_of_product0 (A : FVec Ideal S500000x128 .f32) (W : FVec Ideal S128x4 .f32)
    (x0 : Vec Ideal S10000x128 .f32) (x1 : Vec Ideal S128x4 .f32) (o : Nat) (p : Fin 10000) (q : Fin 4)
    (ho : o + p.val < 500000)
    (h0 : ∀ k : Fin 128, x0 (ix2 p k) = A (ix2 (⟨o + p.val, ho⟩ : Fin 500000) k))
    (h1 : ∀ k : Fin 128, x1 (ix2 k q) = W (ix2 k q)) :
    k0_pay1 x0 x1 (ix2 p q)
      = Host.dotGeneral (DotDims.plain 500000 128 4) none A W (ix2 (⟨o + p.val, ho⟩ : Fin 500000) q) := by
  rw [block_product0, Cert.HostDot.dotGeneral_ix2 _ rfl]
  exact Finset.sum_congr rfl fun k _ => by rw [h0 k, h1 k]

/-- What grid point `t` writes back is block `t` of the product of the two input arrays as the region finds them. -/
theorem written_block0 (c : Dev nD) (t : Fin cfg0.N) :
    (dat0 (F := Ideal) V c).flushed 2 t
      = ((cfg0.win 2).blk t).view.read (Elt Ideal)
          (Host.dotGeneral (F := Ideal) (φ₁ := .f32) (φ₂ := .f32) (DotDims.plain 500000 128 4) none
            (V c main_arg0) (V c main_arg2)) := by
  show (cfg0.win 2).cut (grid0.coords t) ((dat0 V c).after 2 t) = _
  rw [after0_2]
  unfold out0_2
  rw [View.canon_unit_zero zero_offsets0]
  simp only [View.ld_unit_zero (S := S10000x128) zero_offsets0, View.ld_unit_zero (S := S128x4) zero_offsets0]
  funext j
  obtain ⟨p, q, rfl⟩ : ∃ (p : Fin 10000) (q : Fin 4), j = ix2 p q := ⟨j 0, j 1, eq_ix2 j⟩
  obtain ⟨e00, e01, e10, e11, e20, e21⟩ := grid_facts0 t
  have ht : t.val < 50 := t.isLt
  have hp : p.val < 10000 := p.isLt
  have ho : t.val * 10000 + p.val < 500000 := by omega
  refine (block_of_product0 (V c main_arg0) (V c main_arg2) (iblk0 V c 0 t) (iblk0 V c 1 t) (t.val * 10000) p q ho
    (fun k => ?_) (fun k => ?_)).trans ?_
  · -- the left block's entry (p, k) is the left array's entry (10000 t + p, k)
    unfold iblk0
    rw [View.read_apply]
    show V c main_arg0 _ = V c main_arg0 _
    congr 1
    funext a; apply Fin.ext
    match a with
    | ⟨0, _⟩ => show win0_0.index t (0 : Fin 2) * 10000 + 1 * p.val = t.val * 10000 + p.val; rw [e00]; omega
    | ⟨1, _⟩ => show win0_0.index t (1 : Fin 2) * 128 + 1 * k.val = k.val; rw [e01]; omega
  · -- the right block is the whole right array
    unfold iblk0
    rw [View.read_apply]
    show V c main_arg2 _ = V c main_arg2 _
    congr 1
    funext a; apply Fin.ext
    match a with
    | ⟨0, _⟩ => show win0_1.index t (0 : Fin 2) * 128 + 1 * k.val = k.val; rw [e10]; omega
    | ⟨1, _⟩ => show win0_1.index t (1 : Fin 2) * 4 + 1 * q.val = q.val; rw [e11]; omega
  · -- entry (p, q) of the result's block t is the result array's entry (10000 t + p, q)
    rw [View.read_apply]
    show Host.dotGeneral _ _ _ _ _ = Host.dotGeneral _ _ _ _ _
    congr 1
    funext a; apply Fin.ext
    match a with
    | ⟨0, _⟩ => show t.val * 10000 + p.val = win0_2.index t (0 : Fin 2) * 10000 + 1 * p.val; rw [e20]; omega
    | ⟨1, _⟩ => show q.val = win0_2.index t (1 : Fin 2) * 4 + 1 * q.val; rw [e21]; omega

/-- An index of the result array lies in point `t`'s block iff each coordinate lies in the block's range on its axis. -/
theorem mem_block0 (t : Fin cfg0.N) (i : S500000x4.Idx) :
    i ∈ ((cfg0.win 2).blk t).view.set ↔ ∀ a : Fin 2, win0_2.index t a * S10000x4.size a ≤ (i a).val
      ∧ (i a).val < win0_2.index t a * S10000x4.size a + S10000x4.size a := by
  show i ∈ ((View.whole main_v31).slice (win0_2.rect t)).set ↔ _
  rw [View.set_slice_whole, Rect.mem_set_unit]
  exact Iff.rfl

/-- The fifty row blocks tile the result array: row `r` is in the block of point `r / 10000`, and every point
    writes its block back. -/
theorem covered0 (i : S500000x4.Idx) :
    ∃ t : Fin cfg0.N, (cfg0.win 2).flush t = true ∧ i ∈ ((cfg0.win 2).blk t).view.set := by
  have hi0 : (i 0).val < 500000 := (i 0).isLt
  have hi1 : (i 1).val < 4 := (i 1).isLt
  have hq : (i 0).val / 10000 < 50 := by omega
  obtain ⟨-, -, -, -, e20, e21⟩ := grid_facts0 ⟨(i 0).val / 10000, hq⟩
  refine ⟨⟨(i 0).val / 10000, hq⟩, flush0_2 _, ?_⟩
  rw [mem_block0]
  intro a
  match a with
  | ⟨0, _⟩ =>
    show win0_2.index ⟨(i 0).val / 10000, hq⟩ (0 : Fin 2) * 10000 ≤ (i 0).val
      ∧ (i 0).val < win0_2.index ⟨(i 0).val / 10000, hq⟩ (0 : Fin 2) * 10000 + 10000
    rw [e20]; show (i 0).val / 10000 * 10000 ≤ (i 0).val ∧ (i 0).val < (i 0).val / 10000 * 10000 + 10000; omega
  | ⟨1, _⟩ =>
    show win0_2.index ⟨(i 0).val / 10000, hq⟩ (1 : Fin 2) * 4 ≤ (i 1).val
      ∧ (i 1).val < win0_2.index ⟨(i 0).val / 10000, hq⟩ (1 : Fin 2) * 4 + 4
    rw [e21]; omega

/-- After the region the result array is the plain product of the two input arrays as the region found them. -/
theorem region0_out (V : (c : Dev nD) → (b : Ref sig .tc) → Buf (Elt Ideal) ((c : Thread nD τ).loc b)) (c : Dev nD) :
    (dat0 (F := Ideal) V c).arrAt 2 cfg0.N
      = Host.dotGeneral (F := Ideal) (φ₁ := .f32) (φ₂ := .f32) (DotDims.plain 500000 128 4) none
          (V c main_arg0) (V c main_arg2) :=
  (dat0 V c).arrAt_eq_of_cover 2 _ (fun t _ => written_block0 V c t) covered0

end Cert.Gcn

end
-- ==== Proof.Region1.lean ====
/-
  The second matrix-product region, read as one array equation.

  The region walks a grid of fifty points. At point `t` it takes rows `[10000 t, 10000 t + 10000)` of the left array
  (500000 × 4), the whole right array (4 × 4), and writes rows `[10000 t, 10000 t + 10000)` of the result
  (500000 × 4) with the product of the row block and the right array. The body first recasts the row block to its
  own shape, which changes nothing; over the extended reals the narrowing conversions are the identity and a product
  into a zero accumulator is the textbook sum over the contracted index, so entry `(p, q)` of the block written at
  `t` is `∑ k, A[10000 t + p, k] · W[k, q]`: entry `(10000 t + p, q)` of the plain product `A · W`. The fifty row
  blocks tile the result, hence after the region the result array IS `A · W`.
-/
import proofs.«161731_j28269474742564_1_alg».proof.Proof.Gen.KernelIdeal.Frame
import proofs.«161731_j28269474742564_1_alg».proof.Proof.LibPlainMatmul
import proofs.«161731_j28269474742564_1_alg».proof.Proof.LibHostDot
import Idealize.ShloMosaic.Lib.Pipeline.Value
import Idealize.ShloMosaic.Lib.ValueIdx
import Idealize.ShloMosaic.PureOps.Ideal.Laws

noncomputable section

open scoped BigOperators

namespace Cert.Gcn

open Idealize.ShloMosaic Idealize.ShloMosaic.ValueIdx Idealize.ShloMosaic.TcCoe Cert.KernelIdeal Cert.KernelIdeal.Gen
open Idealize.ShloMosaic.Pipeline (Dat)

/-- The matrix unit's dimension record of this region is the plain one: 10000 rows, 4 contracted, 4 columns. -/
theorem rec1 : dot_S10000x4_S4x4_S10000x4_1_0_0_1_n_n = DotDims.plain 10000 4 4 := rfl

/-- The body's payload at an entry: the recast to the same shape and the conversions to the narrow format are the
    identity on extended reals, and a plain product into a zero accumulator is the sum over the contracted index. -/
theorem block_product1 (x0 : Vec Ideal S10000x4 .f32) (x1 : Vec Ideal S4x4 .f32) (p : Fin 10000) (q : Fin 4) :
    k1_pay1 x0 x1 (ix2 p q) = ∑ k : Fin 4, x0 (ix2 p k) * x1 (ix2 k q) := by
  unfold k1_pay1
  rw [rec1, shapeCast_self]
  exact Cert.Gnn.plain_matmul_apply 10000 4 4 none _ _ (ix2 p q)

/-- The index maps over the grid: the left operand's and the result's row blocks move with the point, the right
    operand's one block stays, and no block moves along the columns. -/
theorem grid_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- The body reads and writes its whole buffers: through offsets zero on both axes. -/
theorem zero_offsets1 : (![0, 0] : Fin 2 → Nat) = fun _ => 0 := funext fun a => by fin_cases a <;> rfl

/-- A row block of a product is the product of the row block: if `x0` is rows `[o, o + 10000)` of `A` and `x1` is
    all of `W`, the block product at `(p, q)` is the whole product at `(o + p, q)`. -/
theorem block_of_product1 (A : FVec Ideal S500000x4 .f32) (W : FVec Ideal S4x4 .f32)
    (x0 : Vec Ideal S10000x4 .f32) (x1 : Vec Ideal S4x4 .f32) (o : Nat) (p : Fin 10000) (q : Fin 4)
    (ho : o + p.val < 500000)
    (h0 : ∀ k : Fin 4, x0 (ix2 p k) = A (ix2 (⟨o + p.val, ho⟩ : Fin 500000) k))
    (h1 : ∀ k : Fin 4, x1 (ix2 k q) = W (ix2 k q)) :
    k1_pay1 x0 x1 (ix2 p q)
      = Host.dotGeneral (DotDims.plain 500000 4 4) none A W (ix2 (⟨o + p.val, ho⟩ : Fin 500000) q) := by
  rw [block_product1, Cert.HostDot.dotGeneral_ix2 _ rfl]
  exact Finset.sum_congr rfl fun k _ => by rw [h0 k, h1 k]

/-- What grid point `t` writes back is block `t` of the product of the two input arrays as the region finds them. -/
theorem written_block1 (c : Dev nD) (t : Fin cfg1.N) :
    (dat1 (F := Ideal) V c).flushed 2 t
      = ((cfg1.win 2).blk t).view.read (Elt Ideal)
          (Host.dotGeneral (F := Ideal) (φ₁ := .f32) (φ₂ := .f32) (DotDims.plain 500000 4 4) none
            (V c main_v47) (V c main_arg4)) := by
  show (cfg1.win 2).cut (grid1.coords t) ((dat1 V c).after 2 t) = _
  rw [after1_2]
  unfold out1_2
  rw [View.canon_unit_zero zero_offsets1]
  simp only [View.ld_unit_zero (S := S10000x4) zero_offsets1, View.ld_unit_zero (S := S4x4) zero_offsets1]
  funext j
  obtain ⟨p, q, rfl⟩ : ∃ (p : Fin 10000) (q : Fin 4), j = ix2 p q := ⟨j 0, j 1, eq_ix2 j⟩
  obtain ⟨e00, e01, e10, e11, e20, e21⟩ := grid_facts1 t
  have ht : t.val < 50 := t.isLt
  have hp : p.val < 10000 := p.isLt
  have ho : t.val * 10000 + p.val < 500000 := by omega
  refine (block_of_product1 (V c main_v47) (V c main_arg4) (iblk1 V c 0 t) (iblk1 V c 1 t) (t.val * 10000) p q ho
    (fun k => ?_) (fun k => ?_)).trans ?_
  · -- the left block's entry (p, k) is the left array's entry (10000 t + p, k)
    unfold iblk1
    rw [View.read_apply]
    show V c main_v47 _ = V c main_v47 _
    congr 1
    funext a; apply Fin.ext
    match a with
    | ⟨0, _⟩ => show win1_0.index t (0 : Fin 2) * 10000 + 1 * p.val = t.val * 10000 + p.val; rw [e00]; omega
    | ⟨1, _⟩ => show win1_0.index t (1 : Fin 2) * 4 + 1 * k.val = k.val; rw [e01]; omega
  · -- the right block is the whole right array
    unfold iblk1
    rw [View.read_apply]
    show V c main_arg4 _ = V c main_arg4 _
    congr 1
    funext a; apply Fin.ext
    match a with
    | ⟨0, _⟩ => show win1_1.index t (0 : Fin 2) * 4 + 1 * k.val = k.val; rw [e10]; omega
    | ⟨1, _⟩ => show win1_1.index t (1 : Fin 2) * 4 + 1 * q.val = q.val; rw [e11]; omega
  · -- entry (p, q) of the result's block t is the result array's entry (10000 t + p, q)
    rw [View.read_apply]
    show Host.dotGeneral _ _ _ _ _ = Host.dotGeneral _ _ _ _ _
    congr 1
    funext a; apply Fin.ext
    match a with
    | ⟨0, _⟩ => show t.val * 10000 + p.val = win1_2.index t (0 : Fin 2) * 10000 + 1 * p.val; rw [e20]; omega
    | ⟨1, _⟩ => show q.val = win1_2.index t (1 : Fin 2) * 4 + 1 * q.val; rw [e21]; omega

/-- An index of the result array lies in point `t`'s block iff each coordinate lies in the block's range on its axis. -/
theorem mem_block1 (t : Fin cfg1.N) (i : S500000x4.Idx) :
    i ∈ ((cfg1.win 2).blk t).view.set ↔ ∀ a : Fin 2, win1_2.index t a * S10000x4.size a ≤ (i a).val
      ∧ (i a).val < win1_2.index t a * S10000x4.size a + S10000x4.size a := by
  show i ∈ ((View.whole main_v48).slice (win1_2.rect t)).set ↔ _
  rw [View.set_slice_whole, Rect.mem_set_unit]
  exact Iff.rfl

/-- The fifty row blocks tile the result array: row `r` is in the block of point `r / 10000`, and every point
    writes its block back. -/
theorem covered1 (i : S500000x4.Idx) :
    ∃ t : Fin cfg1.N, (cfg1.win 2).flush t = true ∧ i ∈ ((cfg1.win 2).blk t).view.set := by
  have hi0 : (i 0).val < 500000 := (i 0).isLt
  have hi1 : (i 1).val < 4 := (i 1).isLt
  have hq : (i 0).val / 10000 < 50 := by omega
  obtain ⟨-, -, -, -, e20, e21⟩ := grid_facts1 ⟨(i 0).val / 10000, hq⟩
  refine ⟨⟨(i 0).val / 10000, hq⟩, flush1_2 _, ?_⟩
  rw [mem_block1]
  intro a
  match a with
  | ⟨0, _⟩ =>
    show win1_2.index ⟨(i 0).val / 10000, hq⟩ (0 : Fin 2) * 10000 ≤ (i 0).val
      ∧ (i 0).val < win1_2.index ⟨(i 0).val / 10000, hq⟩ (0 : Fin 2) * 10000 + 10000
    rw [e20]; show (i 0).val / 10000 * 10000 ≤ (i 0).val ∧ (i 0).val < (i 0).val / 10000 * 10000 + 10000; omega
  | ⟨1, _⟩ =>
    show win1_2.index ⟨(i 0).val / 10000, hq⟩ (1 : Fin 2) * 4 ≤ (i 1).val
      ∧ (i 1).val < win1_2.index ⟨(i 0).val / 10000, hq⟩ (1 : Fin 2) * 4 + 4
    rw [e21]; omega

/-- After the region the result array is the plain product of the two input arrays as the region found them. -/
theorem region1_out (V : (c : Dev nD) → (b : Ref sig .tc) → Buf (Elt Ideal) ((c : Thread nD τ).loc b)) (c : Dev nD) :
    (dat1 (F := Ideal) V c).arrAt 2 cfg1.N
      = Host.dotGeneral (F := Ideal) (φ₁ := .f32) (φ₂ := .f32) (DotDims.plain 500000 4 4) none
          (V c main_v47) (V c main_arg4) :=
  (dat1 V c).arrAt_eq_of_cover 2 _ (fun t _ => written_block1 V c t) covered1

end Cert.Gcn

end
-- ==== Proof.Region2.lean ====
/-
  The third matrix-product region, read as one array equation.

  The region walks a grid of fifty points. At point `t` it takes rows `[10000 t, 10000 t + 10000)` of the left array
  (500000 × 4), the whole right array (4 × 2), and writes rows `[10000 t, 10000 t + 10000)` of the result
  (500000 × 2) with the product of the row block and the right array. The body first recasts the row block to its
  own shape, which changes nothing; over the extended reals the narrowing conversions are the identity and a product
  into a zero accumulator is the textbook sum over the contracted index, so entry `(p, q)` of the block written at
  `t` is `∑ k, A[10000 t + p, k] · W[k, q]`: entry `(10000 t + p, q)` of the plain product `A · W`. The fifty row
  blocks tile the result, hence after the region the result array IS `A · W`.
-/
import proofs.«161731_j28269474742564_1_alg».proof.Proof.Gen.KernelIdeal.Frame
import proofs.«161731_j28269474742564_1_alg».proof.Proof.LibPlainMatmul
import proofs.«161731_j28269474742564_1_alg».proof.Proof.LibHostDot
import Idealize.ShloMosaic.Lib.Pipeline.Value
import Idealize.ShloMosaic.Lib.ValueIdx
import Idealize.ShloMosaic.PureOps.Ideal.Laws

noncomputable section

open scoped BigOperators

namespace Cert.Gcn

open Idealize.ShloMosaic Idealize.ShloMosaic.ValueIdx Idealize.ShloMosaic.TcCoe Cert.KernelIdeal Cert.KernelIdeal.Gen
open Idealize.ShloMosaic.Pipeline (Dat)

/-- The matrix unit's dimension record of this region is the plain one: 10000 rows, 4 contracted, 2 columns. -/
theorem rec2 : dot_S10000x4_S4x2_S10000x2_1_0_0_1_n_n = DotDims.plain 10000 4 2 := rfl

/-- The body's payload at an entry: the recast to the same shape and the conversions to the narrow format are the
    identity on extended reals, and a plain product into a zero accumulator is the sum over the contracted index. -/
theorem block_product2 (x0 : Vec Ideal S10000x4 .f32) (x1 : Vec Ideal S4x2 .f32) (p : Fin 10000) (q : Fin 2) :
    k2_pay1 x0 x1 (ix2 p q) = ∑ k : Fin 4, x0 (ix2 p k) * x1 (ix2 k q) := by
  unfold k2_pay1
  rw [rec2, shapeCast_self]
  exact Cert.Gnn.plain_matmul_apply 10000 4 2 none _ _ (ix2 p q)

/-- The index maps over the grid: the left operand's and the result's row blocks move with the point, the right
    operand's one block stays, and no block moves along the columns. -/
theorem grid_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- The body reads and writes its whole buffers: through offsets zero on both axes. -/
theorem zero_offsets2 : (![0, 0] : Fin 2 → Nat) = fun _ => 0 := funext fun a => by fin_cases a <;> rfl

/-- A row block of a product is the product of the row block: if `x0` is rows `[o, o + 10000)` of `A` and `x1` is
    all of `W`, the block product at `(p, q)` is the whole product at `(o + p, q)`. -/
theorem block_of_product2 (A : FVec Ideal S500000x4 .f32) (W : FVec Ideal S4x2 .f32)
    (x0 : Vec Ideal S10000x4 .f32) (x1 : Vec Ideal S4x2 .f32) (o : Nat) (p : Fin 10000) (q : Fin 2)
    (ho : o + p.val < 500000)
    (h0 : ∀ k : Fin 4, x0 (ix2 p k) = A (ix2 (⟨o + p.val, ho⟩ : Fin 500000) k))
    (h1 : ∀ k : Fin 4, x1 (ix2 k q) = W (ix2 k q)) :
    k2_pay1 x0 x1 (ix2 p q)
      = Host.dotGeneral (DotDims.plain 500000 4 2) none A W (ix2 (⟨o + p.val, ho⟩ : Fin 500000) q) := by
  rw [block_product2, Cert.HostDot.dotGeneral_ix2 _ rfl]
  exact Finset.sum_congr rfl fun k _ => by rw [h0 k, h1 k]

/-- What grid point `t` writes back is block `t` of the product of the two input arrays as the region finds them. -/
theorem written_block2 (c : Dev nD) (t : Fin cfg2.N) :
    (dat2 (F := Ideal) V c).flushed 2 t
      = ((cfg2.win 2).blk t).view.read (Elt Ideal)
          (Host.dotGeneral (F := Ideal) (φ₁ := .f32) (φ₂ := .f32) (DotDims.plain 500000 4 2) none
            (V c main_v64) (V c main_arg6)) := by
  show (cfg2.win 2).cut (grid2.coords t) ((dat2 V c).after 2 t) = _
  rw [after2_2]
  unfold out2_2
  rw [View.canon_unit_zero zero_offsets2]
  simp only [View.ld_unit_zero (S := S10000x4) zero_offsets2, View.ld_unit_zero (S := S4x2) zero_offsets2]
  funext j
  obtain ⟨p, q, rfl⟩ : ∃ (p : Fin 10000) (q : Fin 2), j = ix2 p q := ⟨j 0, j 1, eq_ix2 j⟩
  obtain ⟨e00, e01, e10, e11, e20, e21⟩ := grid_facts2 t
  have ht : t.val < 50 := t.isLt
  have hp : p.val < 10000 := p.isLt
  have ho : t.val * 10000 + p.val < 500000 := by omega
  refine (block_of_product2 (V c main_v64) (V c main_arg6) (iblk2 V c 0 t) (iblk2 V c 1 t) (t.val * 10000) p q ho
    (fun k => ?_) (fun k => ?_)).trans ?_
  · -- the left block's entry (p, k) is the left array's entry (10000 t + p, k)
    unfold iblk2
    rw [View.read_apply]
    show V c main_v64 _ = V c main_v64 _
    congr 1
    funext a; apply Fin.ext
    match a with
    | ⟨0, _⟩ => show win2_0.index t (0 : Fin 2) * 10000 + 1 * p.val = t.val * 10000 + p.val; rw [e00]; omega
    | ⟨1, _⟩ => show win2_0.index t (1 : Fin 2) * 4 + 1 * k.val = k.val; rw [e01]; omega
  · -- the right block is the whole right array
    unfold iblk2
    rw [View.read_apply]
    show V c main_arg6 _ = V c main_arg6 _
    congr 1
    funext a; apply Fin.ext
    match a with
    | ⟨0, _⟩ => show win2_1.index t (0 : Fin 2) * 4 + 1 * k.val = k.val; rw [e10]; omega
    | ⟨1, _⟩ => show win2_1.index t (1 : Fin 2) * 2 + 1 * q.val = q.val; rw [e11]; omega
  · -- entry (p, q) of the result's block t is the result array's entry (10000 t + p, q)
    rw [View.read_apply]
    show Host.dotGeneral _ _ _ _ _ = Host.dotGeneral _ _ _ _ _
    congr 1
    funext a; apply Fin.ext
    match a with
    | ⟨0, _⟩ => show t.val * 10000 + p.val = win2_2.index t (0 : Fin 2) * 10000 + 1 * p.val; rw [e20]; omega
    | ⟨1, _⟩ => show q.val = win2_2.index t (1 : Fin 2) * 2 + 1 * q.val; rw [e21]; omega

/-- An index of the result array lies in point `t`'s block iff each coordinate lies in the block's range on its axis. -/
theorem mem_block2 (t : Fin cfg2.N) (i : S500000x2.Idx) :
    i ∈ ((cfg2.win 2).blk t).view.set ↔ ∀ a : Fin 2, win2_2.index t a * S10000x2.size a ≤ (i a).val
      ∧ (i a).val < win2_2.index t a * S10000x2.size a + S10000x2.size a := by
  show i ∈ ((View.whole main_v65).slice (win2_2.rect t)).set ↔ _
  rw [View.set_slice_whole, Rect.mem_set_unit]
  exact Iff.rfl

/-- The fifty row blocks tile the result array: row `r` is in the block of point `r / 10000`, and every point
    writes its block back. -/
theorem covered2 (i : S500000x2.Idx) :
    ∃ t : Fin cfg2.N, (cfg2.win 2).flush t = true ∧ i ∈ ((cfg2.win 2).blk t).view.set := by
  have hi0 : (i 0).val < 500000 := (i 0).isLt
  have hi1 : (i 1).val < 2 := (i 1).isLt
  have hq : (i 0).val / 10000 < 50 := by omega
  obtain ⟨-, -, -, -, e20, e21⟩ := grid_facts2 ⟨(i 0).val / 10000, hq⟩
  refine ⟨⟨(i 0).val / 10000, hq⟩, flush2_2 _, ?_⟩
  rw [mem_block2]
  intro a
  match a with
  | ⟨0, _⟩ =>
    show win2_2.index ⟨(i 0).val / 10000, hq⟩ (0 : Fin 2) * 10000 ≤ (i 0).val
      ∧ (i 0).val < win2_2.index ⟨(i 0).val / 10000, hq⟩ (0 : Fin 2) * 10000 + 10000
    rw [e20]; show (i 0).val / 10000 * 10000 ≤ (i 0).val ∧ (i 0).val < (i 0).val / 10000 * 10000 + 10000; omega
  | ⟨1, _⟩ =>
    show win2_2.index ⟨(i 0).val / 10000, hq⟩ (1 : Fin 2) * 2 ≤ (i 1).val
      ∧ (i 1).val < win2_2.index ⟨(i 0).val / 10000, hq⟩ (1 : Fin 2) * 2 + 2
    rw [e21]; omega

/-- After the region the result array is the plain product of the two input arrays as the region found them. -/
theorem region2_out (V : (c : Dev nD) → (b : Ref sig .tc) → Buf (Elt Ideal) ((c : Thread nD τ).loc b)) (c : Dev nD) :
    (dat2 (F := Ideal) V c).arrAt 2 cfg2.N
      = Host.dotGeneral (F := Ideal) (φ₁ := .f32) (φ₂ := .f32) (DotDims.plain 500000 4 2) none
          (V c main_v64) (V c main_arg6) :=
  (dat2 V c).arrAt_eq_of_cover 2 _ (fun t _ => written_block2 V c t) covered2

end Cert.Gcn

end
-- ==== Proof.KernelValue.lean ====
/-
  The kernel program's result, as the network of stages. Each dense region leaves the plain product of its two input
  arrays in its output array; the first reads the node features and the first weight matrix as launched, the second and
  third read the layer outputs the host operations before them formed. Put in order: the result buffer holds
  `gcn` of the eight input arrays.
-/
import proofs.«161731_j28269474742564_1_alg».proof.Proof.Fold2
import proofs.«161731_j28269474742564_1_alg».proof.Proof.Region0
import proofs.«161731_j28269474742564_1_alg».proof.Proof.Region1
import proofs.«161731_j28269474742564_1_alg».proof.Proof.Region2

set_option maxRecDepth 16384

noncomputable section

namespace Cert.Gcn

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The first region's output array: the node features times the first weight matrix. -/
theorem W4_dense (c : Dev nD) : W4 m ρ c (Proc.devRef .tc main_v31) = dense0 (m ((c : Thread nD τ).loc main_arg0)) (m ((c : Thread nD τ).loc main_arg2)) := by
  refine (W4_arr m ρ c 2).trans ((region0_out (V3 m ρ) c).trans ?_)
  show Host.dotGeneral (F := Ideal) (φ₁ := .f32) (φ₂ := .f32) (DotDims.plain 500000 128 4) none (W3 m ρ c (Proc.devRef .tc main_arg0)) (W3 m ρ c (Proc.devRef .tc main_arg2)) = _
  rw [W3_arg0 m ρ c, W3_arg2 m ρ c]
  rfl

/-- The first layer's output, at the second region's entry. -/
theorem W6_layer1 (c : Dev nD) : W6 m ρ c (Proc.devRef .tc main_v47) = layer1 (m ((c : Thread nD τ).loc main_arg0)) (m ((c : Thread nD τ).loc main_arg1)) (m ((c : Thread nD τ).loc main_arg2)) (m ((c : Thread nD τ).loc main_arg3)) := by
  rw [W6_h m ρ c, W4_dense m ρ c]
  rfl

/-- The second region's output array: the first layer's output times the second weight matrix. -/
theorem W7_dense (c : Dev nD) : W7 m ρ c (Proc.devRef .tc main_v48) = dense1 (layer1 (m ((c : Thread nD τ).loc main_arg0)) (m ((c : Thread nD τ).loc main_arg1)) (m ((c : Thread nD τ).loc main_arg2)) (m ((c : Thread nD τ).loc main_arg3))) (m ((c : Thread nD τ).loc main_arg4)) := by
  refine (W7_arr m ρ c 2).trans ((region1_out (V6 m ρ) c).trans ?_)
  show Host.dotGeneral (F := Ideal) (φ₁ := .f32) (φ₂ := .f32) (DotDims.plain 500000 4 4) none (W6 m ρ c (Proc.devRef .tc main_v47)) (W6 m ρ c (Proc.devRef .tc main_arg4)) = _
  rw [W6_layer1 m ρ c, W6_arg4 m ρ c]
  rfl

/-- The second layer's output, at the third region's entry. -/
theorem W9_layer2 (c : Dev nD) : W9 m ρ c (Proc.devRef .tc main_v64) = layer2 (layer1 (m ((c : Thread nD τ).loc main_arg0)) (m ((c : Thread nD τ).loc main_arg1)) (m ((c : Thread nD τ).loc main_arg2)) (m ((c : Thread nD τ).loc main_arg3))) (m ((c : Thread nD τ).loc main_arg1)) (m ((c : Thread nD τ).loc main_arg4)) (m ((c : Thread nD τ).loc main_arg5)) := by
  rw [W9_h m ρ c, W7_dense m ρ c]
  rfl

/-- The third region's output array: the second layer's output times the third weight matrix. -/
theorem W10_dense (c : Dev nD) : W10 m ρ c (Proc.devRef .tc main_v65) = dense2 (layer2 (layer1 (m ((c : Thread nD τ).loc main_arg0)) (m ((c : Thread nD τ).loc main_arg1)) (m ((c : Thread nD τ).loc main_arg2)) (m ((c : Thread nD τ).loc main_arg3))) (m ((c : Thread nD τ).loc main_arg1)) (m ((c : Thread nD τ).loc main_arg4)) (m ((c : Thread nD τ).loc main_arg5))) (m ((c : Thread nD τ).loc main_arg6)) := by
  refine (W10_arr m ρ c 2).trans ((region2_out (V9 m ρ) c).trans ?_)
  show Host.dotGeneral (F := Ideal) (φ₁ := .f32) (φ₂ := .f32) (DotDims.plain 500000 4 2) none (W9 m ρ c (Proc.devRef .tc main_v64)) (W9 m ρ c (Proc.devRef .tc main_arg6)) = _
  rw [W9_layer2 m ρ c, W9_arg6 m ρ c]
  rfl

/-- The result buffer holds the network's output. -/
theorem kernel_value (c : Dev nD) : W11 m ρ c (Proc.devRef .tc main_v80)
    = gcn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [W11_out m ρ c, W10_dense m ρ c]
  rfl

end Cert.Gcn

end
-- ==== Proof.RefFold.lean ====
/-
  The reference program's run, read as the network's stages.

  The reference is one straight line of host operations. Read in order it first builds, from the edge list alone, the
  sources and targets with one self loop per node, the degrees and their inverse roots, the choice between the inverse
  root and zero, and every edge's weight (the product of that number at the edge's two ends). Then three times over it
  forms a dense product, reads it at every edge's source, scales it by the edge's weight (broadcast to a column anew
  each time), sums at the edge's target and adds the bias, with a positive part after the first two rounds. The line
  is cut into five consecutive pieces at those places; after each piece the buffers that later pieces read hold the
  corresponding stage of the network applied to the launch contents, and no operation writes an input array. The last
  buffer written therefore holds the whole network of the eight inputs.
-/
import proofs.«161731_j28269474742564_1_alg».proof.Proof.RefOps
import proofs.«161731_j28269474742564_1_alg».proof.Proof.Stages
import Idealize.ShloMosaic.Lib.StableHlo.Run
import Idealize.ShloMosaic.Lib.Pipeline.Frame

set_option maxRecDepth 16384

noncomputable section

namespace Cert.Gcn

open Idealize.ShloMosaic Idealize.ShloMosaic.TcCoe Idealize.SL.Sem Idealize.ShloMosaic.StableHlo
open Cert.ReferenceIdeal Cert.ReferenceIdeal.Gen Cert.ReferenceIdeal.ValueP

variable {F : FTy → Type} [FloatOps F]
variable (m : (ℓ : Loc nD τ sig) → Buf (Elt F) ℓ)

/-- Each edge's weight as a plain vector over the edges: the inverse root of the degree at the edge's source times
    the same at its target. Broadcast to one column it is the stage `normOf`. -/
def weightOf (e : (⟨S2x16000000, .i32⟩ : BufTy).Contents (Elt F)) : (⟨S16500000, .f32⟩ : BufTy).Contents (Elt F) :=
  mulf (Host.gather gather_S500000_S16500000x1_S16500000_n_0_n_n_0_1_1 (dinvOf e) (broadcastInDim S16500000x1 ![0] Facts₀.bcast_S16500000_S16500000x1_0 (wrapIdx (srcOf e))))
    (Host.gather gather_S500000_S16500000x1_S16500000_n_0_n_n_0_1_1 (dinvOf e) (broadcastInDim S16500000x1 ![0] Facts₀.bcast_S16500000_S16500000x1_0 (wrapIdx (dstOf e))))

/-! ## The buffers after each piece -/

/-- After the sources, targets, degrees and inverse roots. -/
def B1 (c : Dev nD) : Valuation τ sig (Elt F) := StableHlo.after ops_c0 (launchContents m c)
/-- After the edge weights. -/
def B2 (c : Dev nD) : Valuation τ sig (Elt F) := StableHlo.after ops_c1 (B1 m c)
/-- After the first layer. -/
def B3 (c : Dev nD) : Valuation τ sig (Elt F) := StableHlo.after ops_c2 (B2 m c)
/-- After the second layer. -/
def B4 (c : Dev nD) : Valuation τ sig (Elt F) := StableHlo.after ops_c3 (B3 m c)
/-- After the last aggregation. -/
def B5 (c : Dev nD) : Valuation τ sig (Elt F) := StableHlo.after ops_c4 (B4 m c)

/-- The whole line's fold is the five pieces' folds in a row. -/
theorem after_ops_eq (c : Dev nD) : StableHlo.after ops (launchContents m c) = B5 m c := by
  rw [ops_eq, StableHlo.after_append, StableHlo.after_append, StableHlo.after_append, StableHlo.after_append]
  rfl

/-! ## After the first piece: sources, targets, the degree's sign test and its inverse root -/

set_option maxHeartbeats 400000 in
theorem B1_src (c : Dev nD) : B1 m c (Proc.devRef .tc main_v3) = srcOf (m ((c.tc : Thread nD τ).loc main_arg1)) := by
  show StableHlo.after ops_c0 (launchContents m c) (Proc.devRef .tc main_v3) = _
  after_results
  rfl
set_option maxHeartbeats 400000 in
theorem B1_dst (c : Dev nD) : B1 m c (Proc.devRef .tc main_v6) = dstOf (m ((c.tc : Thread nD τ).loc main_arg1)) := by
  show StableHlo.after ops_c0 (launchContents m c) (Proc.devRef .tc main_v6) = _
  after_results
  rfl
set_option maxHeartbeats 400000 in
/-- Where the degree is positive. -/
theorem B1_pos (c : Dev nD) : B1 m c (Proc.devRef .tc main_v12)
    = cmpf .ogt (degOf (m ((c.tc : Thread nD τ).loc main_arg1))) (broadcastInDim S500000 ![] Facts₀.bcast_S_S500000 (constant S_ .f32 0x00000000#32)) := by
  show StableHlo.after ops_c0 (launchContents m c) (Proc.devRef .tc main_v12) = _
  after_results
  rfl
set_option maxHeartbeats 400000 in
/-- The degree's inverse root. -/
theorem B1_rsqrt (c : Dev nD) : B1 m c (Proc.devRef .tc main_v13) = Host.rsqrt (degOf (m ((c.tc : Thread nD τ).loc main_arg1))) := by
  show StableHlo.after ops_c0 (launchContents m c) (Proc.devRef .tc main_v13) = _
  after_results
  rfl
theorem B1_zero (c : Dev nD) : B1 m c (Proc.devRef .tc main_cst_2) = constant S_ .f32 0x00000000#32 := by
  show StableHlo.after ops_c0 (launchContents m c) (Proc.devRef .tc main_cst_2) = _
  after_results

/-! ## After the second piece: the inverse root where the degree is positive and zero elsewhere, and the edge weights -/

set_option maxHeartbeats 400000 in
theorem B2_dinv (c : Dev nD) : B2 m c (Proc.devRef .tc main_v14) = dinvOf (m ((c.tc : Thread nD τ).loc main_arg1)) := by
  have h12 := B1_pos m c
  have h13 := B1_rsqrt m c
  have hz := B1_zero m c
  show StableHlo.after ops_c1 (B1 m c) (Proc.devRef .tc main_v14) = _
  generalize B1 m c = V at h12 h13 hz ⊢
  after_results_simp
  rw [h12, h13, hz]
  rfl
set_option maxHeartbeats 400000 in
/-- Every edge's weight. -/
theorem B2_weight (c : Dev nD) : B2 m c (Proc.devRef .tc main_v29) = weightOf (m ((c.tc : Thread nD τ).loc main_arg1)) := by
  have h12 := B1_pos m c
  have h13 := B1_rsqrt m c
  have hz := B1_zero m c
  have h3 := B1_src m c
  have h6 := B1_dst m c
  show StableHlo.after ops_c1 (B1 m c) (Proc.devRef .tc main_v29) = _
  generalize B1 m c = V at h12 h13 hz h3 h6 ⊢
  after_results_simp
  rw [h12, h13, hz, h3, h6]
  rfl
theorem B2_src (c : Dev nD) : B2 m c (Proc.devRef .tc main_v3) = srcOf (m ((c.tc : Thread nD τ).loc main_arg1)) := by
  have h := B1_src m c
  show StableHlo.after ops_c1 (B1 m c) (Proc.devRef .tc main_v3) = _
  generalize B1 m c = V at h ⊢
  after_results_simp
  exact h
theorem B2_dst (c : Dev nD) : B2 m c (Proc.devRef .tc main_v6) = dstOf (m ((c.tc : Thread nD τ).loc main_arg1)) := by
  have h := B1_dst m c
  show StableHlo.after ops_c1 (B1 m c) (Proc.devRef .tc main_v6) = _
  generalize B1 m c = V at h ⊢
  after_results_simp
  exact h

/-- No operation writes an input array: each still holds what the launch gave it. -/
theorem B2_arg0 (c : Dev nD) : B2 m c (Proc.devRef .tc main_arg0) = (m ((c.tc : Thread nD τ).loc main_arg0)) := by
  show StableHlo.after ops_c1 (StableHlo.after ops_c0 (launchContents m c)) (Proc.devRef .tc main_arg0) = _
  after_results_simp
theorem B2_arg2 (c : Dev nD) : B2 m c (Proc.devRef .tc main_arg2) = (m ((c.tc : Thread nD τ).loc main_arg2)) := by
  show StableHlo.after ops_c1 (StableHlo.after ops_c0 (launchContents m c)) (Proc.devRef .tc main_arg2) = _
  after_results_simp
theorem B2_arg3 (c : Dev nD) : B2 m c (Proc.devRef .tc main_arg3) = (m ((c.tc : Thread nD τ).loc main_arg3)) := by
  show StableHlo.after ops_c1 (StableHlo.after ops_c0 (launchContents m c)) (Proc.devRef .tc main_arg3) = _
  after_results_simp

/-! ## After the third piece: the first layer -/

set_option maxHeartbeats 400000 in
/-- The first layer's output. -/
theorem B3_layer1 (c : Dev nD) : B3 m c (Proc.devRef .tc main_v47) = layer1 (m ((c.tc : Thread nD τ).loc main_arg0)) (m ((c.tc : Thread nD τ).loc main_arg1)) (m ((c.tc : Thread nD τ).loc main_arg2)) (m ((c.tc : Thread nD τ).loc main_arg3)) := by
  have h3 := B2_src m c
  have h6 := B2_dst m c
  have h29 := B2_weight m c
  have a0 := B2_arg0 m c
  have a2 := B2_arg2 m c
  have a3 := B2_arg3 m c
  show StableHlo.after ops_c2 (B2 m c) (Proc.devRef .tc main_v47) = _
  generalize B2 m c = V at h3 h6 h29 a0 a2 a3 ⊢
  after_results_simp
  rw [h3, h6, h29, a0, a2, a3]
  rfl
theorem B3_src (c : Dev nD) : B3 m c (Proc.devRef .tc main_v3) = srcOf (m ((c.tc : Thread nD τ).loc main_arg1)) := by
  have h := B2_src m c
  show StableHlo.after ops_c2 (B2 m c) (Proc.devRef .tc main_v3) = _
  generalize B2 m c = V at h ⊢
  after_results_simp
  exact h
theorem B3_dst (c : Dev nD) : B3 m c (Proc.devRef .tc main_v6) = dstOf (m ((c.tc : Thread nD τ).loc main_arg1)) := by
  have h := B2_dst m c
  show StableHlo.after ops_c2 (B2 m c) (Proc.devRef .tc main_v6) = _
  generalize B2 m c = V at h ⊢
  after_results_simp
  exact h
theorem B3_weight (c : Dev nD) : B3 m c (Proc.devRef .tc main_v29) = weightOf (m ((c.tc : Thread nD τ).loc main_arg1)) := by
  have h := B2_weight m c
  show StableHlo.after ops_c2 (B2 m c) (Proc.devRef .tc main_v29) = _
  generalize B2 m c = V at h ⊢
  after_results_simp
  exact h
theorem B3_arg4 (c : Dev nD) : B3 m c (Proc.devRef .tc main_arg4) = (m ((c.tc : Thread nD τ).loc main_arg4)) := by
  show StableHlo.after ops_c2 (StableHlo.after ops_c1 (StableHlo.after ops_c0 (launchContents m c))) (Proc.devRef .tc main_arg4) = _
  after_results_simp
theorem B3_arg5 (c : Dev nD) : B3 m c (Proc.devRef .tc main_arg5) = (m ((c.tc : Thread nD τ).loc main_arg5)) := by
  show StableHlo.after ops_c2 (StableHlo.after ops_c1 (StableHlo.after ops_c0 (launchContents m c))) (Proc.devRef .tc main_arg5) = _
  after_results_simp

/-! ## After the fourth piece: the second layer -/

set_option maxHeartbeats 400000 in
/-- The second layer's output. -/
theorem B4_layer2 (c : Dev nD) : B4 m c (Proc.devRef .tc main_v65)
    = layer2 (layer1 (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg1)) (m ((c.tc : Thread nD τ).loc main_arg4)) (m ((c.tc : Thread nD τ).loc main_arg5)) := by
  have h3 := B3_src m c
  have h6 := B3_dst m c
  have h29 := B3_weight m c
  have h47 := B3_layer1 m c
  have a4 := B3_arg4 m c
  have a5 := B3_arg5 m c
  show StableHlo.after ops_c3 (B3 m c) (Proc.devRef .tc main_v65) = _
  generalize B3 m c = V at h3 h6 h29 h47 a4 a5 ⊢
  after_results_simp
  rw [h3, h6, h29, h47, a4, a5]
  rfl
theorem B4_src (c : Dev nD) : B4 m c (Proc.devRef .tc main_v3) = srcOf (m ((c.tc : Thread nD τ).loc main_arg1)) := by
  have h := B3_src m c
  show StableHlo.after ops_c3 (B3 m c) (Proc.devRef .tc main_v3) = _
  generalize B3 m c = V at h ⊢
  after_results_simp
  exact h
theorem B4_dst (c : Dev nD) : B4 m c (Proc.devRef .tc main_v6) = dstOf (m ((c.tc : Thread nD τ).loc main_arg1)) := by
  have h := B3_dst m c
  show StableHlo.after ops_c3 (B3 m c) (Proc.devRef .tc main_v6) = _
  generalize B3 m c = V at h ⊢
  after_results_simp
  exact h
theorem B4_weight (c : Dev nD) : B4 m c (Proc.devRef .tc main_v29) = weightOf (m ((c.tc : Thread nD τ).loc main_arg1)) := by
  have h := B3_weight m c
  show StableHlo.after ops_c3 (B3 m c) (Proc.devRef .tc main_v29) = _
  generalize B3 m c = V at h ⊢
  after_results_simp
  exact h
theorem B4_arg6 (c : Dev nD) : B4 m c (Proc.devRef .tc main_arg6) = (m ((c.tc : Thread nD τ).loc main_arg6)) := by
  show StableHlo.after ops_c3 (StableHlo.after ops_c2 (StableHlo.after ops_c1 (StableHlo.after ops_c0 (launchContents m c)))) (Proc.devRef .tc main_arg6) = _
  after_results_simp
theorem B4_arg7 (c : Dev nD) : B4 m c (Proc.devRef .tc main_arg7) = (m ((c.tc : Thread nD τ).loc main_arg7)) := by
  show StableHlo.after ops_c3 (StableHlo.after ops_c2 (StableHlo.after ops_c1 (StableHlo.after ops_c0 (launchContents m c)))) (Proc.devRef .tc main_arg7) = _
  after_results_simp

/-! ## After the last piece: the network -/

set_option maxHeartbeats 400000 in
/-- The result buffer holds the network of the eight inputs. -/
theorem B5_out (c : Dev nD) : B5 m c (Proc.devRef .tc main_v82)
    = gcn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  have h3 := B4_src m c
  have h6 := B4_dst m c
  have h29 := B4_weight m c
  have h65 := B4_layer2 m c
  have a6 := B4_arg6 m c
  have a7 := B4_arg7 m c
  show StableHlo.after ops_c4 (B4 m c) (Proc.devRef .tc main_v82) = _
  generalize B4 m c = V at h3 h6 h29 h65 a6 a7 ⊢
  after_results_simp
  rw [h3, h6, h29, h65, a6, a7]
  rfl

/-! ## The inputs after the whole line -/

set_option maxHeartbeats 400000 in
/-- No operation of the line writes an input array: after all of them each still holds what the launch gave it. -/
theorem kept_arg0 (c : Dev nD) : StableHlo.after ops (launchContents m c) (Proc.devRef .tc main_arg0) = (m ((c.tc : Thread nD τ).loc main_arg0)) := by
  after_results_simp <;> rfl
set_option maxHeartbeats 400000 in
theorem kept_arg1 (c : Dev nD) : StableHlo.after ops (launchContents m c) (Proc.devRef .tc main_arg1) = (m ((c.tc : Thread nD τ).loc main_arg1)) := by
  after_results_simp <;> rfl
set_option maxHeartbeats 400000 in
theorem kept_arg2 (c : Dev nD) : StableHlo.after ops (launchContents m c) (Proc.devRef .tc main_arg2) = (m ((c.tc : Thread nD τ).loc main_arg2)) := by
  after_results_simp <;> rfl
set_option maxHeartbeats 400000 in
theorem kept_arg3 (c : Dev nD) : StableHlo.after ops (launchContents m c) (Proc.devRef .tc main_arg3) = (m ((c.tc : Thread nD τ).loc main_arg3)) := by
  after_results_simp <;> rfl
set_option maxHeartbeats 400000 in
theorem kept_arg4 (c : Dev nD) : StableHlo.after ops (launchContents m c) (Proc.devRef .tc main_arg4) = (m ((c.tc : Thread nD τ).loc main_arg4)) := by
  after_results_simp <;> rfl
set_option maxHeartbeats 400000 in
theorem kept_arg5 (c : Dev nD) : StableHlo.after ops (launchContents m c) (Proc.devRef .tc main_arg5) = (m ((c.tc : Thread nD τ).loc main_arg5)) := by
  after_results_simp <;> rfl
set_option maxHeartbeats 400000 in
theorem kept_arg6 (c : Dev nD) : StableHlo.after ops (launchContents m c) (Proc.devRef .tc main_arg6) = (m ((c.tc : Thread nD τ).loc main_arg6)) := by
  after_results_simp <;> rfl
set_option maxHeartbeats 400000 in
theorem kept_arg7 (c : Dev nD) : StableHlo.after ops (launchContents m c) (Proc.devRef .tc main_arg7) = (m ((c.tc : Thread nD τ).loc main_arg7)) := by
  after_results_simp <;> rfl

/-! ## The run -/

/-- Every run of the reference ends with the result buffer at the network of the eight launch inputs, and the
    inputs as launched. -/
theorem ref_run (m : (ℓ : Loc Cert.ReferenceIdeal.nD Cert.ReferenceIdeal.τ Cert.ReferenceIdeal.sig) → Buf (Elt F) ℓ) (ρ : Dev Cert.ReferenceIdeal.nD → PrngReg) :
    θ_run (Cert.ReferenceIdeal.defs (F := F)) (onTc (τ := Cert.ReferenceIdeal.τ) (Cert.ReferenceIdeal.main (F := F))) ⟨m, fun _ => 0, ρ⟩ fun r => ∀ c : Dev Cert.ReferenceIdeal.nD,
      r.2.mem ((c.tc : Thread Cert.ReferenceIdeal.nD Cert.ReferenceIdeal.τ).loc Cert.ReferenceIdeal.main_v82)
          = gcn (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))
      ∧ r.2.mem ((c.tc : Thread Cert.ReferenceIdeal.nD Cert.ReferenceIdeal.τ).loc Cert.ReferenceIdeal.main_arg0) = (m ((c.tc : Thread Cert.ReferenceIdeal.nD Cert.ReferenceIdeal.τ).loc Cert.ReferenceIdeal.main_arg0))
      ∧ r.2.mem ((c.tc : Thread Cert.ReferenceIdeal.nD Cert.ReferenceIdeal.τ).loc Cert.ReferenceIdeal.main_arg1) = (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_arg2) = (m ((c.tc : Thread Cert.ReferenceIdeal.nD Cert.ReferenceIdeal.τ).loc Cert.ReferenceIdeal.main_arg2))
      ∧ r.2.mem ((c.tc : Thread Cert.ReferenceIdeal.nD Cert.ReferenceIdeal.τ).loc Cert.ReferenceIdeal.main_arg3) = (m ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_arg4) = (m ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_arg5) = (m ((c.tc : Thread Cert.ReferenceIdeal.nD Cert.ReferenceIdeal.τ).loc Cert.ReferenceIdeal.main_arg5))
      ∧ r.2.mem ((c.tc : Thread Cert.ReferenceIdeal.nD Cert.ReferenceIdeal.τ).loc Cert.ReferenceIdeal.main_arg6) = (m ((c.tc : Thread Cert.ReferenceIdeal.nD Cert.ReferenceIdeal.τ).loc Cert.ReferenceIdeal.main_arg6))
      ∧ r.2.mem ((c.tc : Thread Cert.ReferenceIdeal.nD Cert.ReferenceIdeal.τ).loc Cert.ReferenceIdeal.main_arg7) = (m ((c.tc : Thread Cert.ReferenceIdeal.nD Cert.ReferenceIdeal.τ).loc Cert.ReferenceIdeal.main_arg7)) :=
  (θ_run defs _ _).mono (fun _ h c =>
      ⟨(h c main_v82).trans ((congrFun (after_ops_eq m c) (Proc.devRef .tc main_v82)).trans (B5_out m c)),
       (h c main_arg0).trans (kept_arg0 m c),
       (h c main_arg1).trans (kept_arg1 m c),
       (h c main_arg2).trans (kept_arg2 m c),
       (h c main_arg3).trans (kept_arg3 m c),
       (h c main_arg4).trans (kept_arg4 m c),
       (h c main_arg5).trans (kept_arg5 m c),
       (h c main_arg6).trans (kept_arg6 m c),
       (h c main_arg7).trans (kept_arg7 m c)⟩)
    (run_seq scopedRefs_eq scopedSems_eq defs main (fun _ => ops) main_eq (fun _ => ops_sub) m ρ)

end Cert.Gcn

end
-- ==== Proof.lean ====
/-
  A three-layer graph convolution network over 500,000 nodes and 16,000,000 edges. Each layer multiplies the node
  features by a small weight matrix, reads the products at every edge's source (self loops added), scales them by the
  symmetric normalisation deg^(-1/2)[source] · deg^(-1/2)[target], sums them at the edge's target and adds a bias; the
  first two layers take the positive part. The kernel program computes each layer's matrix product in a TensorCore
  region, fifty row blocks of 10,000 rows, narrowing both operands to bf16 first; the reference computes it as one
  host matrix product. Everything else — the edge bookkeeping, the normalisation, the gathers and the scatter-adds — is
  the same sequence of host operations in both programs.

  Over the extended reals a change of float format is the identity and a matrix product into a zero accumulator is the
  sum over the contracted index, so every row block the region writes is the corresponding rows of the whole product,
  and the fifty blocks tile the output: after a region its output array IS the host product of its inputs
  (`Cert.Gcn.region0_out`, `region1_out`, `region2_out`). Reading the kernel program's buffers from the launch to the
  return (`Cert.Gcn.kernel_value`) and the reference's (`Cert.Gcn.ref_run`) then gives the same function of the eight
  input arrays, `Cert.Gcn.gcn`; no law of arithmetic beyond that is used, and the inputs' finiteness is not needed.
  The kernel program as printed (word level) and its idealization run, terminate and keep their arguments by the
  generated frames; nothing was rewritten by the ideal pass, so the idealization is the program's own text.
-/
import proofs.«161731_j28269474742564_1_alg».proof.Defs
import proofs.«161731_j28269474742564_1_alg».proof.Proof.Gen.Kernel
import proofs.«161731_j28269474742564_1_alg».proof.Proof.Gen.Kernel.Skeleton
import proofs.«161731_j28269474742564_1_alg».proof.Proof.Gen.Kernel.Launch
import proofs.«161731_j28269474742564_1_alg».proof.Proof.Gen.Kernel.Points
import proofs.«161731_j28269474742564_1_alg».proof.Proof.Gen.Kernel.Frame
import proofs.«161731_j28269474742564_1_alg».proof.Proof.Gen.KernelIdeal
import proofs.«161731_j28269474742564_1_alg».proof.Proof.Gen.KernelIdeal.Skeleton
import proofs.«161731_j28269474742564_1_alg».proof.Proof.Gen.KernelIdeal.Launch
import proofs.«161731_j28269474742564_1_alg».proof.Proof.Gen.KernelIdeal.Points
import proofs.«161731_j28269474742564_1_alg».proof.Proof.Gen.KernelIdeal.Frame
import proofs.«161731_j28269474742564_1_alg».proof.Proof.Gen.ReferenceIdeal
import proofs.«161731_j28269474742564_1_alg».proof.Proof.Gen.Pre_finite_inputs
import proofs.«161731_j28269474742564_1_alg».proof.Proof.KernelRun
import proofs.«161731_j28269474742564_1_alg».proof.Proof.KernelValue
import proofs.«161731_j28269474742564_1_alg».proof.Proof.RefFold
import Idealize.ShloMosaic.Adequacy
import Idealize.ShloMosaic.Init

noncomputable section

namespace Cert.Proof

open Idealize.ShloMosaic Idealize.ShloMosaic.TcCoe Idealize.SL.Sem

/-- The kernel program as printed runs, terminates and keeps its arguments. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs, terminates and keeps its arguments: its run with the result forgotten. -/
theorem frame_reference : Cert.frame_ReferenceIdeal := fun m ρ _ =>
  (θ_run Cert.ReferenceIdeal.defs _ _).mono (fun _ h c => (h c).2) (Cert.Gcn.ref_run (F := Ideal) m ρ)

/-- From memories that agree on the eight inputs both programs end with the network's output of those inputs. -/
theorem algebraic : Cert.algebraic_KernelIdeal_ReferenceIdeal := by
  intro m ρ m' ρ' _ hagree
  refine ⟨fun c => Cert.Gcn.gcn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.Gcn.kernel_value m ρ c), (h c).2⟩)
      (Cert.KernelIdeal.GenP.run_result (F := Ideal) m ρ)
  · refine (θ_run Cert.ReferenceIdeal.defs _ _).mono (fun r h c => ⟨(h c).1.trans ?_, (h c).2⟩)
      (Cert.Gcn.ref_run (F := Ideal) m' ρ')
    rw [(hagree c).1, (hagree c).2.1, (hagree c).2.2.1, (hagree c).2.2.2.1, (hagree c).2.2.2.2.1,
      (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
